-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S4096x1024 : Shape := ⟨2, ![4096, 1024]⟩
abbrev S8192x1024 : Shape := ⟨2, ![8192, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | _, _ => ⟨S4096x1024, .f32⟩

abbrev bufScoped : (cs : CoreSpace) → Fin (nBuf (.core cs)) → Bool
  | _, _ => false

abbrev semScoped : Fin 1 → Bool
  | ⟨0, _⟩ => false
  | _ => false

abbrev dmaSemScoped : Fin 3 → Bool
  | ⟨0, _⟩ => true
  | ⟨1, _⟩ => true
  | ⟨2, _⟩ => true
  | _ => false

abbrev sig : RefSig :=
  (ofTc nBuf bufTy 1 3 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v17 : BitVec 32 := Scalar.muli v2 c4096_i32
  let c0_i32_12 : BitVec 32 := 0#32
  ![v17.toNat, 0]
def k0_dev2 (d0 : Dev nD) : Nat :=
  let c0_i32_9 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_8 : BitVec 32 := 16#32
  let v18 : BitVec 32 := Scalar.muli v9 c16_i32_8
  let v19 : BitVec 32 := Scalar.addi c0_i32_9 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v20 : BitVec 32 := Scalar.muli v5 c4_i32_10
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v22 : BitVec 32 := Scalar.muli v8 c1_i32_11
  let v23 : BitVec 32 := Scalar.addi v21 v22
  v23.toNat

class Facts₀ : Prop where
  hamt_1 : (1#32 : BitVec 32).msb = false
  hcc0_scratch0 : 0 + S_.numel ≤ 3
  hcc0_scratch1 : 1 + S_.numel ≤ 3
  hcc0_scratch2 : 2 + S_.numel ≤ 3
  k0_dev1_lt : ∀ d0 : Dev nD, (k0_dev1 d0) < nD
  k0_off1_inb : ∀ d0 : Dev nD, ∀ a, (k0_off1 d0) a + S4096x1024.size a ≤ S8192x1024.size a
  k0_dev2_lt : ∀ d0 : Dev nD, (k0_dev2 d0) < nD

variable [Facts₀]

abbrev cc0_scratch0 : DmaSems sig S_ := SemArray.consecutive 0 S_ hcc0_scratch0
abbrev cc0_scratch1 : DmaSems sig S_ := SemArray.consecutive 1 S_ hcc0_scratch1
abbrev cc0_scratch2 : DmaSems sig S_ := SemArray.consecutive 2 S_ hcc0_scratch2

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Kernel.Sched.lean ====
/-
  The all-gather over the mesh axis of extent 2, on 32 devices: the protocol.

  Device `c` sits at mesh coordinates (c / 16, c / 4 % 4, c % 4); its partner `peer c` differs in the first coordinate
  only (c ± 16), so the devices fall into 16 pairs and `peer` is an involution. Each device holds one block of 4096 rows
  and must end with both blocks, rows [4096·(c / 16), +4096) from itself and the other 4096 rows from its partner.

  Four semaphores per device, one round each, one duty each:
  * the barrier cell: the partner's entry signal, one unit. It hands over the partner's half of ITS result array that this
    device's block is to land in (rows of this device's block index);
  * the copy cell: this device's local copy of its block into its own rows;
  * the send cell: the addressed transfer's departure, which returns the share of the source it read;
  * the receive cell: the partner's transfer landing in this device's other rows.
  A device owes its partner one barrier unit and one block's credit on the partner's receive cell. Levels: barrier cells
  below receive cells, so the barrier wait (owing the partner's receive credit) is allowed; every other wait owes nothing.
-/
import proofs.«900689_g7700000000000690_dist_ag_v7x_xyz2x4x4_x_m4096_n1024_f32_1_alg».proof.Defs
import proofs.«900689_g7700000000000690_dist_ag_v7x_xyz2x4x4_x_m4096_n1024_f32_1_alg».proof.Proof.Gen.Kernel
import proofs.«900689_g7700000000000690_dist_ag_v7x_xyz2x4x4_x_m4096_n1024_f32_1_alg».proof.Proof.Gen.Kernel.Skeleton
import proofs.«900689_g7700000000000690_dist_ag_v7x_xyz2x4x4_x_m4096_n1024_f32_1_alg».proof.Proof.Gen.Kernel.Launch
import proofs.«900689_g7700000000000690_dist_ag_v7x_xyz2x4x4_x_m4096_n1024_f32_1_alg».proof.Proof.Gen.Kernel.Points
import proofs.«900689_g7700000000000690_dist_ag_v7x_xyz2x4x4_x_m4096_n1024_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Gather

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (one duty a round: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The pairs -/

/-- The partner of device `c`: the same second and third mesh coordinates, the other first one. -/
def peer (c : Dev nD) : Dev nD := ⟨(4 * ((c.val / 4) % 4) + (c.val % 4) + 16) - 16 * (c.val / 16), by have h : c.val < 32 := c.isLt; show _ < 32; omega⟩

theorem peer_peer (c : Dev nD) : peer (peer c) = c := by revert c; decide
theorem peer_ne (c : Dev nD) : peer c ≠ c := by revert c; decide
/-- The partner holds the other block. -/
theorem peer_blk (c : Dev nD) : (peer c).val / 16 + c.val / 16 = 1 := by revert c; decide

/-- Both `device_id` chains of the body, the signal's and the transfer's, name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def pairs : Dev nD ≃ Dev nD := ⟨peer, peer, peer_peer, peer_peer⟩

/-! ## The memrefs and cells -/

abbrev xM : Memref sig .tc .hbm S4096x1024 .f32 := Memref.whole main_arg0
abbrev oM : Memref sig .tc .hbm S8192x1024 .f32 := Memref.whole main_v1
/-- The rows of the result array that hold device `d`'s block: 4096 rows from row 4096·(d / 16). -/
abbrev slc (d : Dev nD) : Memref sig .tc .hbm S4096x1024 .f32 :=
  oM.slice (Rect.unit (s := S8192x1024) (k0_off1 d) S4096x1024.size (k0_off1_inb d)) (fun _ => rfl)

abbrev barS : Sem sig := (SemArray.scalar (sig.barrier 0 rfl) : Sems sig S_).sem
abbrev copyS : DmaSems sig S_ := cc0_scratch0
abbrev sendS : DmaSems sig S_ := cc0_scratch1
abbrev recvS : DmaSems sig S_ := cc0_scratch2

abbrev barCell (c : Dev nD) : GSem nD τ sig := ((c : Thread nD τ), .reg barS)
abbrev copyCell (c : Dev nD) : GSem nD τ sig := ((c : Thread nD τ), .dma copyS.sem)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them: copy, send, receive; -/
abbrev osem : Fin 3 → SemLoc sig := fun | 0 => .dma copyS.sem | 1 => .dma sendS.sem | 2 => .dma recvS.sem
/-- all four of the protocol's: barrier, copy, send, receive. -/
abbrev csem : Fin 4 → SemLoc sig := fun | 0 => .reg barS | 1 => .dma copyS.sem | 2 => .dma sendS.sem | 3 => .dma recvS.sem
abbrev kcell (ck : Dev nD × Fin 4) : GSem nD τ sig := ((ck.1 : Thread nD τ), csem ck.2)

/-- One block's credit: what a transfer of 4096 × 1024 words credits. -/
def N : ℕ := (xM : Memref sig .tc .hbm S4096x1024 .f32).view.dmaCredit
theorem N_pos : 0 < N := View.dmaCredit_pos _ (by decide)
theorem slc_credit (d : Dev nD) : (slc d).view.dmaCredit = N := rfl

/-! ## Contents -/

/-- Device `c`'s block, as launched. -/
def xin (c : Dev nD) : Buf (Elt F) ((xM : Memref sig .tc .hbm S4096x1024 .f32).view.loc (c : Thread nD τ)) :=
  m ((c : Thread nD τ).loc main_arg0)

/-- The result array of device `c` with device `c`'s block written into its rows and then device `d`'s into its. -/
def gath2 (c d : Dev nD) : Buf (Elt F) ((c : Thread nD τ).loc main_v1) :=
  (slc d).view.write (Elt F)
    ((slc c).view.write (Elt F) (m ((c : Thread nD τ).loc main_v1)) ((xM : Memref sig .tc .hbm S4096x1024 .f32).view.read (Elt F) (xin m c)) Finset.univ)
    ((xM : Memref sig .tc .hbm S4096x1024 .f32).view.read (Elt F) (xin m d)) Finset.univ

/-- What device `c`'s result array ends holding: its own block in its rows, its partner's in the others. -/
def gath (c : Dev nD) : Buf (Elt F) ((c : Thread nD τ).loc main_v1) := gath2 m c (peer c)

omit [FloatOps F] in
theorem gath_peer (c : Dev nD) : gath m (peer c) = gath2 m (peer c) c := by unfold gath; rw [peer_peer]

/-! ## The two halves of the result array -/

omit [FloatOps F] in
theorem slc_set (d : Dev nD) : (slc d).view.set = (Rect.unit (s := S8192x1024) (k0_off1 d) S4096x1024.size (k0_off1_inb d)).set :=
  View.set_slice_whole _ _

omit [FloatOps F] in
/-- Row `i 0` lies in device `d`'s rows iff it is in [4096·(d / 16), +4096). -/
theorem mem_slc (d : Dev nD) (i : S8192x1024.Idx) :
    i ∈ (slc d).view.set ↔ 4096 * (d.val / 16) ≤ (i 0 : ℕ) ∧ (i 0 : ℕ) < 4096 * (d.val / 16) + 4096 := by
  rw [slc_set, Rect.mem_set_unit, k0_off1_eq d]
  have h1 : (i 1 : ℕ) < 1024 := (i 1).isLt
  constructor
  · intro h; exact h 0
  · intro h a
    match a with
    | ⟨0, _⟩ => exact h
    | ⟨1, _⟩ => exact ⟨Nat.zero_le _, by show (i 1 : ℕ) < 0 + 1024; omega⟩

omit [FloatOps F] in
theorem slc_disjoint (c : Dev nD) : Disjoint (slc c).view.set (slc (peer c)).view.set := by
  rw [Finset.disjoint_left]
  intro i hi hj
  rw [mem_slc] at hi hj
  have := peer_blk c
  omega

omit [FloatOps F] in
/-- The partner's rows are the rest of the array. -/
theorem slc_compl (c : Dev nD) : (Finset.univ : Finset S8192x1024.Idx) \ (slc c).view.set = (slc (peer c)).view.set := by
  ext i
  rw [Finset.mem_sdiff, mem_slc, mem_slc]
  have h0 : (i 0 : ℕ) < 8192 := (i 0).isLt
  have := peer_blk c
  have hc : c.val / 16 < 2 := by have h : c.val < 32 := c.isLt; omega
  constructor
  · rintro ⟨-, h⟩; omega
  · intro h; exact ⟨Finset.mem_univ _, by omega⟩

omit [FloatOps F] in
/-- On a view's own elements a whole write does not depend on what was there. -/
theorem write_univ_congr {sp : Space} {S : Shape} {e : EltTy} (v : View sig .tc sp S e) (f g : v.ty.Contents (Elt F)) (w : S.Idx → Elt F e) :
    ∀ i ∈ v.set, v.write (Elt F) f w Finset.univ i = v.write (Elt F) g w Finset.univ i := by
  intro i hi
  obtain ⟨y, rfl⟩ := View.exists_emb_of_mem_set v hi
  rw [View.write_emb_of_mem _ _ (Finset.mem_univ y), View.write_emb_of_mem _ _ (Finset.mem_univ y)]

/-- A round with one duty expects that duty's amount, whatever the schedule and whatever the amount. -/
theorem expect_single {G : Type} [DecidableEq G] {D : Type} [DecidableEq D] {M : Type} [URA M]
    (Rd : Rounds.Schedule G D M) (g : G) (r : ℕ) (d : D) (k : ℕ)
    (hd : Rd.duties g r = {d}) (hk : Rd.amount g r d = k) : Rd.expect g r = k := by
  unfold Rounds.Schedule.expect Rounds.Schedule.amountOf; rw [hd, Finset.sum_singleton, hk]

/-! ## The schedule -/

/-- What the partner's entry signal hands device `c`: the rows of the PARTNER's result array that `c`'s block is to land in. -/
def barPay (c : Dev nD) : sProp 𝕄 :=
  iprop(∃ f, (slc c).view.loc (peer c : Thread nD τ) ↦[(slc c).view.set]{fullShare} f)
/-- What the local copy's landing hands back: device `c`'s own rows holding its block, and the share of the source it read. -/
def copyPay (c : Dev nD) : sProp 𝕄 :=
  iprop(((slc c).view.loc (c : Thread nD τ) ↦[(slc c).view.set]{fullShare} gath m c)
    ∗ ((xM : Memref sig .tc .hbm S4096x1024 .f32).view.loc (c : Thread nD τ) ↦[(xM : Memref sig .tc .hbm S4096x1024 .f32).view.set]{fullShare.right} xin m c))
/-- What the transfer's departure hands back: the share of the source it read. -/
def sendPay (c : Dev nD) : sProp 𝕄 :=
  (xM : Memref sig .tc .hbm S4096x1024 .f32).view.loc (c : Thread nD τ) ↦[(xM : Memref sig .tc .hbm S4096x1024 .f32).view.set]{fullShare.left} xin m c
/-- What the partner's transfer hands device `c` on landing: `c`'s other rows holding the partner's block. -/
def recvPay (c : Dev nD) : sProp 𝕄 :=
  (slc (peer c)).view.loc (c : Thread nD τ) ↦[(slc (peer c)).view.set]{fullShare} gath m c

abbrev IsBar (g : GSem nD τ sig) : Prop := g.1.2 = .tc ∧ g.2 = .reg barS
abbrev IsDma (g : GSem nD τ sig) : Prop := g.1.2 = .tc ∧ (g.2 = .dma copyS.sem ∨ g.2 = .dma sendS.sem ∨ g.2 = .dma recvS.sem)

/-- One round, round 0, one duty on each of a TensorCore's four cells: a barrier cell's of one unit, a DMA cell's of the
    block's credit. -/
def sched : Rounds.Schedule (GSem nD τ sig) Unit 𝕄 where
  duties g r := if r = 0 ∧ (IsBar g ∨ IsDma g) then {()} else ∅
  unitless _ := False
  amount g _ _ := if g.2 = .reg barS then 1 else N
  payload g _ _ :=
    if g.2 = .reg barS then barPay g.1.1
    else if g.2 = .dma copyS.sem then copyPay m g.1.1
    else if g.2 = .dma sendS.sem then sendPay m g.1.1
    else if g.2 = .dma recvS.sem then recvPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1
    else if g.2 = .dma copyS.sem then copyPay m g.1.1
    else if g.2 = .dma sendS.sem then sendPay m g.1.1
    else if g.2 = .dma recvS.sem then recvPay m g.1.1 else iprop(emp))
  unfold barPay copyPay sendPay recvPay
  (repeat' split) <;> infer_instance

section Sched
variable (c : Dev nD)

theorem copy_ne_bar : (SemLoc.dma copyS.sem : SemLoc sig) ≠ .reg barS := fun h => by cases h
theorem send_ne_bar : (SemLoc.dma sendS.sem : SemLoc sig) ≠ .reg barS := fun h => by cases h
theorem recv_ne_bar : (SemLoc.dma recvS.sem : SemLoc sig) ≠ .reg barS := fun h => by cases h
theorem send_ne_copy : (SemLoc.dma sendS.sem : SemLoc sig) ≠ .dma copyS.sem := by decide
theorem recv_ne_copy : (SemLoc.dma recvS.sem : SemLoc sig) ≠ .dma copyS.sem := by decide
theorem recv_ne_send : (SemLoc.dma recvS.sem : SemLoc sig) ≠ .dma sendS.sem := by decide

omit [FloatOps F] in
theorem duties_bar : (sched (F := F) m).duties (barCell c) 0 = {()} := by dsimp only [sched]; exact if_pos ⟨rfl, .inl ⟨rfl, rfl⟩⟩
omit [FloatOps F] in
theorem duties_copy : (sched (F := F) m).duties (copyCell c) 0 = {()} := by dsimp only [sched]; exact if_pos ⟨rfl, .inr ⟨rfl, .inl rfl⟩⟩
omit [FloatOps F] in
theorem duties_send : (sched (F := F) m).duties (sendCell c) 0 = {()} := by dsimp only [sched]; exact if_pos ⟨rfl, .inr ⟨rfl, .inr (.inl rfl)⟩⟩
omit [FloatOps F] in
theorem duties_recv : (sched (F := F) m).duties (recvCell c) 0 = {()} := by dsimp only [sched]; exact if_pos ⟨rfl, .inr ⟨rfl, .inr (.inr rfl)⟩⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := by dsimp only [sched]; exact if_pos rfl
omit [FloatOps F] in
theorem amount_copy (d : Unit) : (sched (F := F) m).amount (copyCell c) 0 d = N := by dsimp only [sched]; exact if_neg copy_ne_bar
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar

omit [FloatOps F] in
theorem expect_bar : (sched (F := F) m).expect (barCell c) 0 = 1 :=
  expect_single (sched (F := F) m) (barCell c) 0 () 1 (duties_bar m c) (amount_bar m c ())
omit [FloatOps F] in
theorem expect_copy : (sched (F := F) m).expect (copyCell c) 0 = N :=
  expect_single (sched (F := F) m) (copyCell c) 0 () N (duties_copy m c) (amount_copy m c ())
omit [FloatOps F] in
theorem expect_send : (sched (F := F) m).expect (sendCell c) 0 = N :=
  expect_single (sched (F := F) m) (sendCell c) 0 () N (duties_send m c) (amount_send m c ())
omit [FloatOps F] in
theorem expect_recv : (sched (F := F) m).expect (recvCell c) 0 = N :=
  expect_single (sched (F := F) m) (recvCell c) 0 () N (duties_recv m c) (amount_recv m c ())

omit [FloatOps F] in
theorem payload_bar (d : Unit) : (sched (F := F) m).payload (barCell c) 0 d = barPay c := by dsimp only [sched]; rw [if_pos rfl]
omit [FloatOps F] in
theorem payload_copy (d : Unit) : (sched (F := F) m).payload (copyCell c) 0 d = copyPay m c := by
  dsimp only [sched]; rw [if_neg copy_ne_bar, if_pos rfl]
omit [FloatOps F] in
theorem payload_send (d : Unit) : (sched (F := F) m).payload (sendCell c) 0 d = sendPay m c := by
  dsimp only [sched]; rw [if_neg send_ne_bar, if_neg send_ne_copy, if_pos rfl]
omit [FloatOps F] in
theorem payload_recv (d : Unit) : (sched (F := F) m).payload (recvCell c) 0 d = recvPay m c := by
  dsimp only [sched]; rw [if_neg recv_ne_bar, if_neg recv_ne_copy, if_neg recv_ne_send, if_pos rfl]

omit [FloatOps F] in
/-- The rest of each cell's round, no duty taken: its one payload. -/
theorem rest_bar : bigSep ((sched (F := F) m).duties (barCell c) 0 \ ∅) (fun d => (sched (F := F) m).payload (barCell c) 0 d) = barPay c := by
  rw [Finset.sdiff_empty, duties_bar, bigSep_singleton, payload_bar]
omit [FloatOps F] in
theorem rest_copy : bigSep ((sched (F := F) m).duties (copyCell c) 0 \ ∅) (fun d => (sched (F := F) m).payload (copyCell c) 0 d) = copyPay m c := by
  rw [Finset.sdiff_empty, duties_copy, bigSep_singleton, payload_copy]
omit [FloatOps F] in
theorem rest_send : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device `c` owes its partner's receive cell one block's credit and its partner's barrier cell one unit; the entry signal
    peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, copy and send cells at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.Gather

end
-- ==== Proof.Kernel.Body.lean ====
/-
  One device's body, stepped once at a symbolic device `c`.

  The device starts holding its whole block and its whole result array. Before anything else it cuts the result array into
  its own rows and its partner's rows, and its block into two shares: the partner's rows go to the partner with the entry
  signal, one share of the block is lent to the addressed transfer and the other to the local copy. After the three DMA
  waits both halves of the result array are back, each holding the block that belongs there, and both shares of the block.
-/
import proofs.«900689_g7700000000000690_dist_ag_v7x_xyz2x4x4_x_m4096_n1024_f32_1_alg».proof.Proof.Kernel.Sched

noncomputable section

namespace Cert.Kernel.Gather

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own four, its
    partner's barrier cell (its signal) and its partner's receive cell (its transfer). -/
def invs (K : Dev nD × Fin 4 → ℕ) (c : Dev nD) : sProp 𝕄 :=
  iprop(cellInv ER (sched m) (K (c, 0)) (barCell c) ∗ cellInv ER (sched m) (K (c, 1)) (copyCell c)
    ∗ cellInv ER (sched m) (K (c, 2)) (sendCell c) ∗ cellInv ER (sched m) (K (c, 3)) (recvCell c)
    ∗ cellInv ER (sched m) (K (peer c, 0)) (barCell (peer c)) ∗ cellInv ER (sched m) (K (peer c, 3)) (recvCell (peer c)))

instance invs_persistent (K : Dev nD × Fin 4 → ℕ) (c : Dev nD) : BI.Persistent (invs m K c) := by unfold invs; infer_instance

/-- The protocol's ghost state device `c` starts from: the invariants; its positions at round 0 of its four cells; round 0
    reached on the cells it pays; the four duty tokens it pays with — its partner's barrier duty and receive duty, its own
    copy duty and send duty. -/
def ghost (K : Dev nD × Fin 4 → ℕ) (c : Dev nD) : sProp 𝕄 :=
  iprop(invs m K c
    ∗ atPos ER (barCell c) 0 ∅ 0 ∗ atPos ER (copyCell c) 0 ∅ 0 ∗ atPos ER (sendCell c) 0 ∅ 0 ∗ atPos ER (recvCell c) 0 ∅ 0
    ∗ reached ER (barCell (peer c)) 0 ∗ reached ER (recvCell (peer c)) 0 ∗ reached ER (copyCell c) 0 ∗ reached ER (sendCell c) 0
    ∗ dutyTok ER (barCell (peer c)) 0 () ∗ dutyTok ER (recvCell (peer c)) 0 () ∗ dutyTok ER (copyCell c) 0 () ∗ dutyTok ER (sendCell c) 0 ())

/-- What device `c`'s body starts from beside its two arrays: the ghost state at some names, the credit for the one unit its
    partner owes its barrier cell and for the block its partner owes its receive cell, and the level facts. -/
def start (c : Dev nD) : sProp 𝕄 :=
  iprop((∃ K, ghost m K c) ∗ cred (tallyAt (barCell c) () 1) ∗ cred (tallyAt (recvCell c) () N) ∗ levAts L lv)

/-- Device `c`'s block, whole, as launched; its result array, whole, at contents `f`. -/
def xWhole (c : Dev nD) : sProp 𝕄 := ((c : Thread nD τ).loc main_arg0) ↦{fullShare} m ((c : Thread nD τ).loc main_arg0)
def oWhole (c : Dev nD) (f : Buf (Elt F) ((c : Thread nD τ).loc main_v1)) : sProp 𝕄 := ((c : Thread nD τ).loc main_v1) ↦{fullShare} f

def Φ₀ (c : Dev nD) : sProp 𝕄 := iprop(start m c ∗ xWhole m c ∗ oWhole c (m ((c : Thread nD τ).loc main_v1)))
/-- After the body: the block as it was, the result array gathered, the three own cells at zero, closed. -/
def Φ₁ (c : Dev nD) : sProp 𝕄 :=
  iprop(xWhole m c ∗ oWhole c (gath m c) ∗ semVal (copyCell c) 0 ∗ semVal (sendCell c) 0 ∗ semVal (recvCell c) 0)

/-- The pipeline's proof data: no window, one point; the invariant before and after the point; the device owes `O₀ c`
    before it and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

omit [FloatOps F] in
/-- The barrier payload at the PARTNER's cell, the partner's partner resolved to the device itself: the partner's rows of
    this device's result array, at any contents. -/
theorem payload_bar_peer (c : Dev nD) (d : Unit) : (sched (F := F) m).payload (barCell (peer c)) 0 d
    = iprop(∃ f, (slc (peer c)).view.loc (c : Thread nD τ) ↦[(slc (peer c)).view.set]{fullShare} f) := by
  rw [payload_bar]; unfold barPay; rw [peer_peer]
omit [FloatOps F] in
/-- The receive payload at the partner's cell: the rows of block `c` of the PARTNER's result array, gathered. -/
theorem payload_recv_peer (c : Dev nD) (d : Unit) : (sched (F := F) m).payload (recvCell (peer c)) 0 d
    = ((slc c).view.loc (peer c : Thread nD τ) ↦[(slc c).view.set]{fullShare} gath2 m (peer c) c) := by
  rw [payload_recv, ← gath_peer]; unfold recvPay; rw [peer_peer]

omit [FloatOps F] in
/-- The block held whole at a share and held through its (whole) view are one assertion. -/
theorem x_eq (q : PosShare TreeShare) (c : Dev nD) :
    ((xM : Memref sig .tc .hbm S4096x1024 .f32).view.loc (c : Thread nD τ) ↦[(xM : Memref sig .tc .hbm S4096x1024 .f32).view.set]{q} xin m c : sProp 𝕄)
      = (((c : Thread nD τ).loc main_arg0) ↦{q} m ((c : Thread nD τ).loc main_arg0)) := by
  rw [show (xM : Memref sig .tc .hbm S4096x1024 .f32).view.set = Finset.univ from View.set_whole _]; rfl

omit [FloatOps F] in
/-- The local copy's landing makes the copy cell's payload: on the device's own rows the gathered array is the block just
    written, since the later write of the partner's block touches only the other rows. -/
theorem copy_pay (c : Dev nD) :
    (iprop(((slc c).view.loc (c : Thread nD τ) ↦[(slc c).view.set]{fullShare}
          ((slc c).view.write (Elt F) (m ((c : Thread nD τ).loc main_v1)) ((xM : Memref sig .tc .hbm S4096x1024 .f32).view.read (Elt F) (xin m c)) Finset.univ))
        ∗ ((xM : Memref sig .tc .hbm S4096x1024 .f32).view.loc (c : Thread nD τ) ↦[(xM : Memref sig .tc .hbm S4096x1024 .f32).view.set]{fullShare.right} xin m c)) : sProp 𝕄)
      ⊢ (sched (F := F) m).payload (copyCell c) 0 () := by
  rw [payload_copy]; unfold copyPay
  refine sep_mono_left (Entails.of_eq (pointsTo_congr fun i hi => ?_))
  have hni : i ∉ (slc (peer c)).view.setOn Finset.univ := by
    rw [View.setOn_univ]; exact Finset.disjoint_left.mp (slc_disjoint c) hi
  unfold gath gath2
  exact (View.write_of_not_mem (v := (slc (peer c)).view) _ _ Finset.univ hni).symm

section Body

variable (K : Dev nD × Fin 4 → ℕ)

def bodyPre (c : Dev nD) : sProp 𝕄 :=
  iprop((ghost m K c ∗ cred (tallyAt (barCell c) () 1) ∗ cred (tallyAt (recvCell c) () N) ∗ levAts L lv)
    ∗ xWhole m c ∗ oWhole c (m ((c : Thread nD τ).loc main_v1))
    ∗ (dats m 0 c).owesAt () t₀.castSucc)

def bodyPost (c : Dev nD) : sProp 𝕄 := iprop(Φ₁ m c ∗ (dats m 0 c).owesAt () t₀.succ)

omit [FloatOps F] in
/-- The result array cut into the device's own rows and its partner's. -/
theorem o_split (c : Dev nD) (f : Buf (Elt F) ((c : Thread nD τ).loc main_v1)) :
    oWhole c f ⊣⊢ (iprop(((slc c).view.loc (c : Thread nD τ) ↦[(slc c).view.set]{fullShare} f)
      ∗ ((slc (peer c)).view.loc (c : Thread nD τ) ↦[(slc (peer c)).view.set]{fullShare} f)) : sProp 𝕄) := by
  unfold oWhole
  have e : (Finset.univ : Finset (Idx ((c : Thread nD τ).loc main_v1))) \ (slc c).view.set = (slc (peer c)).view.set := slc_compl c
  have h : (((c : Thread nD τ).loc main_v1) ↦[Finset.univ]{fullShare} f : sProp 𝕄)
      ⊣⊢ iprop((((c : Thread nD τ).loc main_v1) ↦[(slc c).view.set]{fullShare} f)
        ∗ (((c : Thread nD τ).loc main_v1) ↦[Finset.univ \ (slc c).view.set]{fullShare} f)) :=
    pointsTo_split_subset (Finset.subset_univ _)
  rw [e] at h
  exact h

/-- The addressed transfer of device `c`'s block into the rows of block `c` of its partner's result array, the device the
    program names given as `n = peer c` (substituted, not rewritten: the transfer's typing facts depend on it). It pays the
    send cell's duty with the share of the block it read and the partner's receive duty with those rows rewritten. -/
theorem wp_send_pair (c n : Dev nD) (hn : n = peer c)
    {hsc : (slc c : Memref sig (Dev.tc n : Thread nD τ).2.kind .hbm S4096x1024 .f32).view.ref.isScScratch = false}
    {hsrc : (xM : Memref sig .tc .hbm S4096x1024 .f32).view.WordExact} {hdst : (slc c).view.WordExact}
    {hsem : DmaTarget.Typed .hbm (.dma recvS.sem) (.remote (Dev.tc n : Thread nD τ) (slc c) (.dma sendS.sem) hsc)}
    {α : Type} {Q : α → sProp 𝕄} {k : PUnit → Prog (TpuEff nD τ sig (Elt F) Λ₀ .tc) α}
    (fn : Buf (Elt F) ((slc c).view.loc (peer c : Thread nD τ))) (W : Waits sig Unit) :
    iprop(cellInv ER (sched m) (K (c, 2)) (sendCell c) ∗ cellInv ER (sched m) (K (peer c, 3)) (recvCell (peer c))
        ∗ ((xM : Memref sig .tc .hbm S4096x1024 .f32).view.loc (c : Thread nD τ) ↦[(xM : Memref sig .tc .hbm S4096x1024 .f32).view.set]{fullShare.left} xin m c)
        ∗ ((slc c).view.loc (peer c : Thread nD τ) ↦[(slc c).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) (slc c) (.dma sendS.sem) hsc) (.dma recvS.sem) hsrc hdst hsem) k) Q) := by
  subst hn
  exact Rounds.wp_send_pointsTo 𝒱₀ ER (sched m) (c : Thread nD τ) none (κ₁ := K (c, 2)) (κ₂ := K (peer c, 3))
    (r₁ := 0) (r₂ := 0) (d₁ := ()) (d₂ := ()) (q := fullShare.left) (fs := xin m c) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by
      rw [payload_recv_peer]; unfold gath2
      exact Entails.of_eq (pointsTo_congr fun i hi => write_univ_congr (slc c).view _ _ _ i hi))

set_option maxHeartbeats 800000 in
/-- The body, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIcpy, #HIsnd, #HIrcv, #HIbarP, #HIrcvP⟩, HatB, HatC, HatS, HatV, #HrBP, #HrVP, #HrC, #HrS, HtBP, HtVP, HtC, HtS⟩, HcB, HcV, #Hlev⟩,
    Hx, Ho, HO⟩, Hk⟩
  unfold Dat.owesAt Pipeline.owesWithin
  icases HO with ⟨%W, %hW, HO⟩
  rw [show (dats m 0 c).owed t₀.castSucc = O₀ c from rfl]
  simp only [dev1_eq c]
  -- the result array in two halves, the block in two shares
  ihave Ho2 := (o_split c _).1 $$ Ho
  icases Ho2 with ⟨Hmine, Htheirs⟩
  unfold xWhole
  ihave Hx2 := (pointsTo_share (PosShare.mem_left_op_right fullShare)).1 $$ Hx
  icases Hx2 with ⟨HxL, HxR⟩
  ihave HxL := (Entails.of_eq (x_eq m fullShare.left c).symm) $$ HxL
  ihave HxR := (Entails.of_eq (x_eq m fullShare.right c).symm) $$ HxR
  -- the entry SIGNAL to the partner's barrier: it hands over the partner's rows of this device's result array
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) ()
      (tallyAt (recvCell (peer c)) () N) rfl)
    $$ [HO HtBP Htheirs]
  · isplitr; · iexact HIbarP
    isplitl [HO]; · iexact HO
    isplitl [HtBP]; · iexact HtBP
    isplitl [Htheirs]
    · rw [payload_bar_peer]; iexists _; iexact Htheirs
    · iexact HrBP
  iintro HO
  -- the WAIT for the partner's unit, owing its receive credit: the partner's slot for this device's block comes with it
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨%fn, Hslot⟩
  -- the TRANSFER of the block into the partner's slot, reading the left share
  iapply (wp_send_pair m K c _ (dev2_eq c) fn (insert (SemLoc.reg barS, ()) W)) $$ [HxL Hslot HO HtS HtVP]
  · isplitr; · iexact HIsnd
    isplitr; · iexact HIrcvP
    isplitl [HxL]; · iexact HxL
    isplitl [Hslot]; · iexact Hslot
    isplitl [HO]; · iexact HO
    isplitl [HtS]; · iexact HtS
    isplitr; · iexact HrS
    isplitl [HtVP]; · iexact HtVP
    iexact HrVP
  iintro ⟨HcS, HO⟩
  -- the LOCAL COPY of the block into the device's own rows, reading the right share
  iapply (Rounds.wp_copy_pointsTo 𝒱₀ ER (sched m) (c : Thread nD τ) none (src := xM) (dst := slc c) (sem := .dma copyS.sem)
      (q := fullShare.right) (fs := xin m c) (fd := m ((c : Thread nD τ).loc main_v1)) (κ := K (c, 1)) (r := 0) (d := ())
      (by rw [duties_copy]; exact Finset.mem_singleton_self _) () N rfl (amount_copy m c ()) (copy_pay m c)) $$ [HxR Hmine HtC]
  · isplitr; · iexact HIcpy
    isplitl [HxR]; · iexact HxR
    isplitl [Hmine]; · iexact Hmine
    isplitl [HtC]; · iexact HtC
    iexact HrC
  iintro HcC
  -- the wait on the COPY cell: the own rows, holding the block, and the right share back
  iapply (Rounds.wp_wait_rest_token 𝒱₀ ER (sched m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_copy]; exact slc_credit c)) $$ [HcC HO HatC]
  · isplitr; · iexact HIcpy
    isplitl [HcC]; · iexact HcC
    isplitl [HO]; · iexact HO
    isplitr; · rw [MayWait_zero]; iempintro
    iexact HatC
  iintro ⟨HO, HatC, -, Hpay⟩
  ihave Hp := (Entails.of_eq (rest_copy m c)) $$ Hpay
  unfold copyPay
  icases Hp with ⟨Hmine, HxR⟩
  -- the wait on the SEND cell: the left share back
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma copyS.sem, ()) (insert (SemLoc.reg barS, ()) W)) (R := 0) (m := 0) (T := ∅)
      (by rw [Nat.zero_add, expect_send]; rfl)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HxL := (Entails.of_eq ((rest_send m c).trans (by unfold sendPay; rfl))) $$ Hpay
  -- the wait on the RECEIVE cell: the other rows, holding the partner's block
  iapply (Rounds.wp_wait_rest_token 𝒱₀ ER (sched m) (c : Thread nD τ) none (κ := K (c, 3))
      (wpE_waitDma2_eq 𝒱₀ (c : Thread nD τ) none Set.univ) (Set.mem_univ _) () (O := 0)
      (W := insert (SemLoc.dma sendS.sem, ()) (insert (SemLoc.dma copyS.sem, ()) (insert (SemLoc.reg barS, ()) W))) (R := 0) (m := 0) (T := ∅)
      (by rw [Nat.zero_add, expect_recv]; exact slc_credit c)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Htheirs := (Entails.of_eq ((rest_recv m c).trans (by unfold recvPay; rfl))) $$ Hpay
  -- the three own cells close: their counters at zero are the device's again
  imod (Rounds.cell_close ER (sched m) (Set.mem_univ (K (c, 1))) (fun h => h) (R := 0 + 1) (duties_later m (copyCell c))) $$ [HatC] with HzC
  · isplitr; · iexact HIcpy
    iexact HatC
  imod (Rounds.cell_close ER (sched m) (Set.mem_univ (K (c, 2))) (fun h => h) (R := 0 + 1) (duties_later m (sendCell c))) $$ [HatS] with HzS
  · isplitr; · iexact HIsnd
    iexact HatS
  imod (Rounds.cell_close ER (sched m) (Set.mem_univ (K (c, 3))) (fun h => h) (R := 0 + 1) (duties_later m (recvCell c))) $$ [HatV] with HzV
  · isplitr; · iexact HIrcv
    iexact HatV
  -- the shares and the halves rejoin
  ihave Hx := (pointsTo_share (PosShare.mem_left_op_right fullShare)).2 $$ [HxL HxR]
  · isplitl [HxL] <;> iassumption
  ihave Hx := (Entails.of_eq (x_eq m fullShare c)) $$ Hx
  ihave Ho := (o_split c (gath m c)).2 $$ [Hmine Htheirs]
  · isplitl [Hmine] <;> iassumption
  rw [wp_ret]; imodintro
  iapply Hk
  unfold bodyPost Φ₁ Dat.owesAt Pipeline.owesWithin xWhole
  rw [show (dats m 0 c).owed t₀.succ = 0 from rfl]
  isplitl [Hx Ho HzC HzS HzV]
  · isplitl [Hx]; · iexact Hx
    isplitl [Ho]; · iexact Ho
    isplitl [HzC]; · iexact HzC
    isplitl [HzS]; · iexact HzS
    iexact HzV
  iexists (insert (SemLoc.dma recvS.sem, ()) (insert (SemLoc.dma sendS.sem, ()) (insert (SemLoc.dma copyS.sem, ()) (insert (SemLoc.reg barS, ()) W))))
  isplitr; · ipureintro; exact fun _ _ => Or.inl trivial
  iexact HO

end Body

end Cert.Kernel.Gather

end
-- ==== Proof.Kernel.Launch.lean ====
/-
  The launch: from "each device's body is proved" to the run of the whole mesh.

  Every device's four cells are allocated under one update (a device's barrier and receive cells are paid by its partner,
  so their invariants are shared); each cell's one duty token is dealt to the device that pays it — the barrier's and the
  receive cell's to the partner, the copy's and the send's to the device itself. The launch credit of device `c` is what
  its partner owes it: one barrier unit and one block on its receive cell. The two arrays travel through the launch as
  the device's unscoped buffers and are read back against the final memory.
-/
import proofs.«900689_g7700000000000690_dist_ag_v7x_xyz2x4x4_x_m4096_n1024_f32_1_alg».proof.Proof.Kernel.Body

noncomputable section

namespace Cert.Kernel.Gather

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

theorem ownSemFacts : Pipeline.OwnSemFacts cfg0.spec osem := by decide

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def allCells : Finset (GSem nD τ sig) := Finset.univ.map ⟨kcell, kcell_injective⟩

/-- Each cell's one duty token, as minted. -/
abbrev tokOf (ck : Dev nD × Fin 4) : GSem nD τ sig × ℕ × Unit := (kcell ck, 0, ())
theorem tokOf_injective : Function.Injective (tokOf : Dev nD × Fin 4 → GSem nD τ sig × ℕ × Unit) :=
  fun a b h => kcell_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop(dutyTok ER (barCell c) 0 () ∗ dutyTok ER (copyCell c) 0 () ∗ dutyTok ER (sendCell c) 0 () ∗ dutyTok ER (recvCell c) 0 ())

/-- What the launch element deals device `c`. -/
def G (c : Dev nD) : sProp 𝕄 :=
  iprop((bigSep Finset.univ fun k : Fin 4 => roundState ER (sched m) (kcell (c, k)) 0)
    ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 4 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin4]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The copy, send and receive semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (copyCell c) 0 ∗ semVal (sendCell c) 0 ∗ semVal (recvCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HC, HS, HV⟩, HB⟩
  isplitl [HB]; · iexact HB
  isplitl [HC]; · iexact HC
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (sched m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (sched m) (K ck) (kcell ck) : sProp 𝕄)) ⊢ cellInv ER (sched m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (copyCell c) 0 () ∗ dutyTok ER (sendCell c) 0 ())
def linear (c : Dev nD) : sProp 𝕄 :=
  iprop((atPos ER (barCell c) 0 ∅ 0 ∗ atPos ER (copyCell c) 0 ∅ 0 ∗ atPos ER (sendCell c) 0 ∅ 0 ∗ atPos ER (recvCell c) 0 ∅ 0) ∗ payToks c)

omit [FloatOps F] in
theorem ghost_intro (K : Dev nD × Fin 4 → ℕ) (c : Dev nD) : iprop(records m K ∗ linear c) ⊢ G' m c := by
  unfold records linear payToks G' ghost invs
  iintro ⟨⟨#HI, #HR⟩, ⟨HaB, HaC, HaS, HaV⟩, HtBP, HtVP, HtC, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (peer c, 0)); iexact HI
    iapply (inv_at m K (peer c, 3)); iexact HI
  isplitl [HaB]; · iexact HaB
  isplitl [HaC]; · iexact HaC
  isplitl [HaS]; · iexact HaS
  isplitl [HaV]; · iexact HaV
  isplitr; · iapply (reached_at (F := F) (peer c, 0)); iexact HR
  isplitr; · iapply (reached_at (F := F) (peer c, 3)); iexact HR
  isplitr; · iapply (reached_at (F := F) (c, 1)); iexact HR
  isplitr; · iapply (reached_at (F := F) (c, 2)); iexact HR
  isplitl [HtBP]; · iexact HtBP
  isplitl [HtVP]; · iexact HtVP
  isplitl [HtC]; · iexact HtC
  iexact HtS

omit [FloatOps F] in
/-- The tokens dealt across each pair: a barrier cell's and a receive cell's token to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pairs (fun c : Dev nD => (dutyTok ER (barCell c) 0 () : sProp 𝕄)),
    bigSep_univ_equiv pairs (fun c : Dev nD => (dutyTok ER (recvCell c) 0 () : sProp 𝕄))]
  iintro ⟨H1, H2, H3, H4⟩
  isplitl [H1]; · iexact H1
  isplitl [H4]; · iexact H4
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
theorem peer_eq_iff {d c : Dev nD} : Iff (peer d = c) (d = peer c) :=
  ⟨fun h => by rw [← h, peer_peer], fun h => by rw [h, peer_peer]⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (peer_eq_iff.mp (bar_eq_iff.mp h1.symm))), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (peer_eq_iff.mp (recv_eq_iff.mp h1.symm))), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

/-- What a device routes into the pipeline's invariant: its start state and its two arrays. -/
def X (c : Dev nD) : sProp 𝕄 := Φ₀ m c
/-- What it is left with: its block as it was, its result array gathered. -/
def Y (c : Dev nD) : sProp 𝕄 := iprop(xWhole m c ∗ oWhole c (gath m c))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold X Φ₀ start G' xWhole oWhole
  isplitl
  · isplitl [HG H1 HN Hlev]
    · isplitl [HG]; · iexact HG
      isplitl [H1]; · iexact H1
      isplitl [HN]; · iexact HN
      iexact Hlev
    isplitl [Hx]; · iexact Hx
    iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold X
  iintro ⟨Hs, -, -⟩
  iexact Hs

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨Hx, Ho, HzC, HzS, HzV⟩
  isplitl [Hx Ho]
  · isplitl [Hx] <;> iassumption
  isplitl [HzC HzS HzV]
  · isplitl [HzC]; · iexact HzC
    isplitl [HzS] <;> iassumption
  iempintro

theorem waits (c : Dev nD) : (levAts L lv : sProp 𝕄) ⊢ Pipeline.cellsWaits cfgs (dats m) () 0 c :=
  Pipeline.cellsWaits_intro cfgs (dats m) () 0 c fun w s t => w.elim0

/-! ### The body obligation and the run -/

omit [FloatOps F] in
theorem bigSep_W0 (Φ : Fin cfg0.W → sProp 𝕄) : bigSep Finset.univ Φ = iprop(emp) := by
  rw [show (Finset.univ : Finset (Fin cfg0.W)) = ∅ from Finset.univ_eq_empty, bigSep_empty]; rfl

/-- The library's body obligation on device `c`: no window, one point. -/
theorem body_obligation (c : Dev nD) : BodyObligation (dats (F := F) m 0 c) (defs₀ (F := F)) 𝒱₀ () Set.univ := fun t => by
  rw [fin_N t]
  rw [bigSep_W0, bigSep_W0]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2) (fun _ => iprop(Φ₁ m c ∗ (dats m 0 c).owesAt () t₀.succ ∗ emp))
  unfold Φ₀ start
  iintro ⟨⟨⟨⟨%K, Hg⟩, Hrest⟩, Hx, Ho⟩, HO, -⟩
  iapply (sound_body m K c fun _ => iprop(Φ₁ m c ∗ (dats m 0 c).owesAt () t₀.succ ∗ emp))
  unfold bodyPre bodyPost
  isplitr []
  · isplitl [Hg Hrest]
    · isplitl [Hg]; · iexact Hg
      iexact Hrest
    isplitl [Hx]; · iexact Hx
    isplitl [Ho]; · iexact Ho
    iexact HO
  · iintro ⟨H1, H2⟩
    isplitl [H1]; · iexact H1
    isplitl [H2]; · iexact H2
    iempintro

/-- What the run establishes: every device's result array gathered, its block as it was. -/
def QM : PUnit × MemSt nD τ sig (Elt F) → Prop := fun r =>
  ∀ c : Dev nD, r.2.mem ((c : Thread nD τ).loc main_v1) = gath m c
    ∧ r.2.mem ((c : Thread nD τ).loc main_arg0) = m ((c : Thread nD τ).loc main_arg0)

set_option maxRecDepth 8000 in
/-- At the compiled mesh of 32 devices, for any float values, from any memory with zero counters: every weakly fair
    execution of @main — the 16 pairs each shaking hands on the barrier semaphore, then exchanging blocks — terminates, and
    every final state has each device's result array holding both blocks and its own block unchanged. -/
theorem run_main : θ_run defs (onTc (τ := τ) (main (F := F))) ⟨m, fun _ => 0, ρ⟩ (QM m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = gath m c
      ∧ s.mem ((c : Thread nD τ).loc main_arg0) = m ((c : Thread nD τ).loc main_arg0))
    (hY := fun c s' => by
      unfold Y xWhole oWhole
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.Gather.run_main' depends on axioms: [propext, Classical.choice, Quot.sound] -/
#guard_msgs in #print axioms run_main

end Cert.Kernel.Gather

end
-- ==== Proof.KernelIdeal.Sched.lean ====
/-
  The all-gather over the mesh axis of extent 2, on 32 devices: the protocol.

  Device `c` sits at mesh coordinates (c / 16, c / 4 % 4, c % 4); its partner `peer c` differs in the first coordinate
  only (c ± 16), so the devices fall into 16 pairs and `peer` is an involution. Each device holds one block of 4096 rows
  and must end with both blocks, rows [4096·(c / 16), +4096) from itself and the other 4096 rows from its partner.

  Four semaphores per device, one round each, one duty each:
  * the barrier cell: the partner's entry signal, one unit. It hands over the partner's half of ITS result array that this
    device's block is to land in (rows of this device's block index);
  * the copy cell: this device's local copy of its block into its own rows;
  * the send cell: the addressed transfer's departure, which returns the share of the source it read;
  * the receive cell: the partner's transfer landing in this device's other rows.
  A device owes its partner one barrier unit and one block's credit on the partner's receive cell. Levels: barrier cells
  below receive cells, so the barrier wait (owing the partner's receive credit) is allowed; every other wait owes nothing.
-/
import proofs.«900689_g7700000000000690_dist_ag_v7x_xyz2x4x4_x_m4096_n1024_f32_1_alg».proof.Defs
import proofs.«900689_g7700000000000690_dist_ag_v7x_xyz2x4x4_x_m4096_n1024_f32_1_alg».proof.Proof.Gen.KernelIdeal
import proofs.«900689_g7700000000000690_dist_ag_v7x_xyz2x4x4_x_m4096_n1024_f32_1_alg».proof.Proof.Gen.KernelIdeal.Skeleton
import proofs.«900689_g7700000000000690_dist_ag_v7x_xyz2x4x4_x_m4096_n1024_f32_1_alg».proof.Proof.Gen.KernelIdeal.Launch
import proofs.«900689_g7700000000000690_dist_ag_v7x_xyz2x4x4_x_m4096_n1024_f32_1_alg».proof.Proof.Gen.KernelIdeal.Points
import proofs.«900689_g7700000000000690_dist_ag_v7x_xyz2x4x4_x_m4096_n1024_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (one duty a round: duties `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The pairs -/

/-- The partner of device `c`: the same second and third mesh coordinates, the other first one. -/
def peer (c : Dev nD) : Dev nD := ⟨(4 * ((c.val / 4) % 4) + (c.val % 4) + 16) - 16 * (c.val / 16), by have h : c.val < 32 := c.isLt; show _ < 32; omega⟩

theorem peer_peer (c : Dev nD) : peer (peer c) = c := by revert c; decide
theorem peer_ne (c : Dev nD) : peer c ≠ c := by revert c; decide
/-- The partner holds the other block. -/
theorem peer_blk (c : Dev nD) : (peer c).val / 16 + c.val / 16 = 1 := by revert c; decide

/-- Both `device_id` chains of the body, the signal's and the transfer's, name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def pairs : Dev nD ≃ Dev nD := ⟨peer, peer, peer_peer, peer_peer⟩

/-! ## The memrefs and cells -/

abbrev xM : Memref sig .tc .hbm S4096x1024 .f32 := Memref.whole main_arg0
abbrev oM : Memref sig .tc .hbm S8192x1024 .f32 := Memref.whole main_v1
/-- The rows of the result array that hold device `d`'s block: 4096 rows from row 4096·(d / 16). -/
abbrev slc (d : Dev nD) : Memref sig .tc .hbm S4096x1024 .f32 :=
  oM.slice (Rect.unit (s := S8192x1024) (k0_off1 d) S4096x1024.size (k0_off1_inb d)) (fun _ => rfl)

abbrev barS : Sem sig := (SemArray.scalar (sig.barrier 0 rfl) : Sems sig S_).sem
abbrev copyS : DmaSems sig S_ := cc0_scratch0
abbrev sendS : DmaSems sig S_ := cc0_scratch1
abbrev recvS : DmaSems sig S_ := cc0_scratch2

abbrev barCell (c : Dev nD) : GSem nD τ sig := ((c : Thread nD τ), .reg barS)
abbrev copyCell (c : Dev nD) : GSem nD τ sig := ((c : Thread nD τ), .dma copyS.sem)
abbrev sendCell (c : Dev nD) : GSem nD τ sig := ((c : Thread nD τ), .dma sendS.sem)
abbrev recvCell (c : Dev nD) : GSem nD τ sig := ((c : Thread nD τ), .dma recvS.sem)

/-- The kernel's own (scoped) semaphores, as the launch indexes them: copy, send, receive; -/
abbrev osem : Fin 3 → SemLoc sig := fun | 0 => .dma copyS.sem | 1 => .dma sendS.sem | 2 => .dma recvS.sem
/-- all four of the protocol's: barrier, copy, send, receive. -/
abbrev csem : Fin 4 → SemLoc sig := fun | 0 => .reg barS | 1 => .dma copyS.sem | 2 => .dma sendS.sem | 3 => .dma recvS.sem
abbrev kcell (ck : Dev nD × Fin 4) : GSem nD τ sig := ((ck.1 : Thread nD τ), csem ck.2)

/-- One block's credit: what a transfer of 4096 × 1024 words credits. -/
def N : ℕ := (xM : Memref sig .tc .hbm S4096x1024 .f32).view.dmaCredit
theorem N_pos : 0 < N := View.dmaCredit_pos _ (by decide)
theorem slc_credit (d : Dev nD) : (slc d).view.dmaCredit = N := rfl

/-! ## Contents -/

/-- Device `c`'s block, as launched. -/
def xin (c : Dev nD) : Buf (Elt F) ((xM : Memref sig .tc .hbm S4096x1024 .f32).view.loc (c : Thread nD τ)) :=
  m ((c : Thread nD τ).loc main_arg0)

/-- The result array of device `c` with device `c`'s block written into its rows and then device `d`'s into its. -/
def gath2 (c d : Dev nD) : Buf (Elt F) ((c : Thread nD τ).loc main_v1) :=
  (slc d).view.write (Elt F)
    ((slc c).view.write (Elt F) (m ((c : Thread nD τ).loc main_v1)) ((xM : Memref sig .tc .hbm S4096x1024 .f32).view.read (Elt F) (xin m c)) Finset.univ)
    ((xM : Memref sig .tc .hbm S4096x1024 .f32).view.read (Elt F) (xin m d)) Finset.univ

/-- What device `c`'s result array ends holding: its own block in its rows, its partner's in the others. -/
def gath (c : Dev nD) : Buf (Elt F) ((c : Thread nD τ).loc main_v1) := gath2 m c (peer c)

omit [FloatOps F] in
theorem gath_peer (c : Dev nD) : gath m (peer c) = gath2 m (peer c) c := by unfold gath; rw [peer_peer]

/-! ## The two halves of the result array -/

omit [FloatOps F] in
theorem slc_set (d : Dev nD) : (slc d).view.set = (Rect.unit (s := S8192x1024) (k0_off1 d) S4096x1024.size (k0_off1_inb d)).set :=
  View.set_slice_whole _ _

omit [FloatOps F] in
/-- Row `i 0` lies in device `d`'s rows iff it is in [4096·(d / 16), +4096). -/
theorem mem_slc (d : Dev nD) (i : S8192x1024.Idx) :
    i ∈ (slc d).view.set ↔ 4096 * (d.val / 16) ≤ (i 0 : ℕ) ∧ (i 0 : ℕ) < 4096 * (d.val / 16) + 4096 := by
  rw [slc_set, Rect.mem_set_unit, k0_off1_eq d]
  have h1 : (i 1 : ℕ) < 1024 := (i 1).isLt
  constructor
  · intro h; exact h 0
  · intro h a
    match a with
    | ⟨0, _⟩ => exact h
    | ⟨1, _⟩ => exact ⟨Nat.zero_le _, by show (i 1 : ℕ) < 0 + 1024; omega⟩

omit [FloatOps F] in
theorem slc_disjoint (c : Dev nD) : Disjoint (slc c).view.set (slc (peer c)).view.set := by
  rw [Finset.disjoint_left]
  intro i hi hj
  rw [mem_slc] at hi hj
  have := peer_blk c
  omega

omit [FloatOps F] in
/-- The partner's rows are the rest of the array. -/
theorem slc_compl (c : Dev nD) : (Finset.univ : Finset S8192x1024.Idx) \ (slc c).view.set = (slc (peer c)).view.set := by
  ext i
  rw [Finset.mem_sdiff, mem_slc, mem_slc]
  have h0 : (i 0 : ℕ) < 8192 := (i 0).isLt
  have := peer_blk c
  have hc : c.val / 16 < 2 := by have h : c.val < 32 := c.isLt; omega
  constructor
  · rintro ⟨-, h⟩; omega
  · intro h; exact ⟨Finset.mem_univ _, by omega⟩

omit [FloatOps F] in
/-- On a view's own elements a whole write does not depend on what was there. -/
theorem write_univ_congr {sp : Space} {S : Shape} {e : EltTy} (v : View sig .tc sp S e) (f g : v.ty.Contents (Elt F)) (w : S.Idx → Elt F e) :
    ∀ i ∈ v.set, v.write (Elt F) f w Finset.univ i = v.write (Elt F) g w Finset.univ i := by
  intro i hi
  obtain ⟨y, rfl⟩ := View.exists_emb_of_mem_set v hi
  rw [View.write_emb_of_mem _ _ (Finset.mem_univ y), View.write_emb_of_mem _ _ (Finset.mem_univ y)]

/-- A round with one duty expects that duty's amount, whatever the schedule and whatever the amount. -/
theorem expect_single {G : Type} [DecidableEq G] {D : Type} [DecidableEq D] {M : Type} [URA M]
    (Rd : Rounds.Schedule G D M) (g : G) (r : ℕ) (d : D) (k : ℕ)
    (hd : Rd.duties g r = {d}) (hk : Rd.amount g r d = k) : Rd.expect g r = k := by
  unfold Rounds.Schedule.expect Rounds.Schedule.amountOf; rw [hd, Finset.sum_singleton, hk]

/-! ## The schedule -/

/-- What the partner's entry signal hands device `c`: the rows of the PARTNER's result array that `c`'s block is to land in. -/
def barPay (c : Dev nD) : sProp 𝕄 :=
  iprop(∃ f, (slc c).view.loc (peer c : Thread nD τ) ↦[(slc c).view.set]{fullShare} f)
/-- What the local copy's landing hands back: device `c`'s own rows holding its block, and the share of the source it read. -/
def copyPay (c : Dev nD) : sProp 𝕄 :=
  iprop(((slc c).view.loc (c : Thread nD τ) ↦[(slc c).view.set]{fullShare} gath m c)
    ∗ ((xM : Memref sig .tc .hbm S4096x1024 .f32).view.loc (c : Thread nD τ) ↦[(xM : Memref sig .tc .hbm S4096x1024 .f32).view.set]{fullShare.right} xin m c))
/-- What the transfer's departure hands back: the share of the source it read. -/
def sendPay (c : Dev nD) : sProp 𝕄 :=
  (xM : Memref sig .tc .hbm S4096x1024 .f32).view.loc (c : Thread nD τ) ↦[(xM : Memref sig .tc .hbm S4096x1024 .f32).view.set]{fullShare.left} xin m c
/-- What the partner's transfer hands device `c` on landing: `c`'s other rows holding the partner's block. -/
def recvPay (c : Dev nD) : sProp 𝕄 :=
  (slc (peer c)).view.loc (c : Thread nD τ) ↦[(slc (peer c)).view.set]{fullShare} gath m c

abbrev IsBar (g : GSem nD τ sig) : Prop := g.1.2 = .tc ∧ g.2 = .reg barS
abbrev IsDma (g : GSem nD τ sig) : Prop := g.1.2 = .tc ∧ (g.2 = .dma copyS.sem ∨ g.2 = .dma sendS.sem ∨ g.2 = .dma recvS.sem)

/-- One round, round 0, one duty on each of a TensorCore's four cells: a barrier cell's of one unit, a DMA cell's of the
    block's credit. -/
def sched : Rounds.Schedule (GSem nD τ sig) Unit 𝕄 where
  duties g r := if r = 0 ∧ (IsBar g ∨ IsDma g) then {()} else ∅
  unitless _ := False
  amount g _ _ := if g.2 = .reg barS then 1 else N
  payload g _ _ :=
    if g.2 = .reg barS then barPay g.1.1
    else if g.2 = .dma copyS.sem then copyPay m g.1.1
    else if g.2 = .dma sendS.sem then sendPay m g.1.1
    else if g.2 = .dma recvS.sem then recvPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1
    else if g.2 = .dma copyS.sem then copyPay m g.1.1
    else if g.2 = .dma sendS.sem then sendPay m g.1.1
    else if g.2 = .dma recvS.sem then recvPay m g.1.1 else iprop(emp))
  unfold barPay copyPay sendPay recvPay
  (repeat' split) <;> infer_instance

section Sched
variable (c : Dev nD)

theorem copy_ne_bar : (SemLoc.dma copyS.sem : SemLoc sig) ≠ .reg barS := fun h => by cases h
theorem send_ne_bar : (SemLoc.dma sendS.sem : SemLoc sig) ≠ .reg barS := fun h => by cases h
theorem recv_ne_bar : (SemLoc.dma recvS.sem : SemLoc sig) ≠ .reg barS := fun h => by cases h
theorem send_ne_copy : (SemLoc.dma sendS.sem : SemLoc sig) ≠ .dma copyS.sem := by decide
theorem recv_ne_copy : (SemLoc.dma recvS.sem : SemLoc sig) ≠ .dma copyS.sem := by decide
theorem recv_ne_send : (SemLoc.dma recvS.sem : SemLoc sig) ≠ .dma sendS.sem := by decide

omit [FloatOps F] in
theorem duties_bar : (sched (F := F) m).duties (barCell c) 0 = {()} := by dsimp only [sched]; exact if_pos ⟨rfl, .inl ⟨rfl, rfl⟩⟩
omit [FloatOps F] in
theorem duties_copy : (sched (F := F) m).duties (copyCell c) 0 = {()} := by dsimp only [sched]; exact if_pos ⟨rfl, .inr ⟨rfl, .inl rfl⟩⟩
omit [FloatOps F] in
theorem duties_send : (sched (F := F) m).duties (sendCell c) 0 = {()} := by dsimp only [sched]; exact if_pos ⟨rfl, .inr ⟨rfl, .inr (.inl rfl)⟩⟩
omit [FloatOps F] in
theorem duties_recv : (sched (F := F) m).duties (recvCell c) 0 = {()} := by dsimp only [sched]; exact if_pos ⟨rfl, .inr ⟨rfl, .inr (.inr rfl)⟩⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (d : Unit) : (sched (F := F) m).amount (barCell c) 0 d = 1 := by dsimp only [sched]; exact if_pos rfl
omit [FloatOps F] in
theorem amount_copy (d : Unit) : (sched (F := F) m).amount (copyCell c) 0 d = N := by dsimp only [sched]; exact if_neg copy_ne_bar
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar

omit [FloatOps F] in
theorem expect_bar : (sched (F := F) m).expect (barCell c) 0 = 1 :=
  expect_single (sched (F := F) m) (barCell c) 0 () 1 (duties_bar m c) (amount_bar m c ())
omit [FloatOps F] in
theorem expect_copy : (sched (F := F) m).expect (copyCell c) 0 = N :=
  expect_single (sched (F := F) m) (copyCell c) 0 () N (duties_copy m c) (amount_copy m c ())
omit [FloatOps F] in
theorem expect_send : (sched (F := F) m).expect (sendCell c) 0 = N :=
  expect_single (sched (F := F) m) (sendCell c) 0 () N (duties_send m c) (amount_send m c ())
omit [FloatOps F] in
theorem expect_recv : (sched (F := F) m).expect (recvCell c) 0 = N :=
  expect_single (sched (F := F) m) (recvCell c) 0 () N (duties_recv m c) (amount_recv m c ())

omit [FloatOps F] in
theorem payload_bar (d : Unit) : (sched (F := F) m).payload (barCell c) 0 d = barPay c := by dsimp only [sched]; rw [if_pos rfl]
omit [FloatOps F] in
theorem payload_copy (d : Unit) : (sched (F := F) m).payload (copyCell c) 0 d = copyPay m c := by
  dsimp only [sched]; rw [if_neg copy_ne_bar, if_pos rfl]
omit [FloatOps F] in
theorem payload_send (d : Unit) : (sched (F := F) m).payload (sendCell c) 0 d = sendPay m c := by
  dsimp only [sched]; rw [if_neg send_ne_bar, if_neg send_ne_copy, if_pos rfl]
omit [FloatOps F] in
theorem payload_recv (d : Unit) : (sched (F := F) m).payload (recvCell c) 0 d = recvPay m c := by
  dsimp only [sched]; rw [if_neg recv_ne_bar, if_neg recv_ne_copy, if_neg recv_ne_send, if_pos rfl]

omit [FloatOps F] in
/-- The rest of each cell's round, no duty taken: its one payload. -/
theorem rest_bar : bigSep ((sched (F := F) m).duties (barCell c) 0 \ ∅) (fun d => (sched (F := F) m).payload (barCell c) 0 d) = barPay c := by
  rw [Finset.sdiff_empty, duties_bar, bigSep_singleton, payload_bar]
omit [FloatOps F] in
theorem rest_copy : bigSep ((sched (F := F) m).duties (copyCell c) 0 \ ∅) (fun d => (sched (F := F) m).payload (copyCell c) 0 d) = copyPay m c := by
  rw [Finset.sdiff_empty, duties_copy, bigSep_singleton, payload_copy]
omit [FloatOps F] in
theorem rest_send : bigSep ((sched (F := F) m).duties (sendCell c) 0 \ ∅) (fun d => (sched (F := F) m).payload (sendCell c) 0 d) = sendPay m c := by
  rw [Finset.sdiff_empty, duties_send, bigSep_singleton, payload_send]
omit [FloatOps F] in
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device `c` owes its partner's receive cell one block's credit and its partner's barrier cell one unit; the entry signal
    peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, copy and send cells at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.Gather

end
-- ==== Proof.KernelIdeal.Body.lean ====
/-
  One device's body, stepped once at a symbolic device `c`.

  The device starts holding its whole block and its whole result array. Before anything else it cuts the result array into
  its own rows and its partner's rows, and its block into two shares: the partner's rows go to the partner with the entry
  signal, one share of the block is lent to the addressed transfer and the other to the local copy. After the three DMA
  waits both halves of the result array are back, each holding the block that belongs there, and both shares of the block.
-/
import proofs.«900689_g7700000000000690_dist_ag_v7x_xyz2x4x4_x_m4096_n1024_f32_1_alg».proof.Proof.KernelIdeal.Sched

noncomputable section

namespace Cert.KernelIdeal.Gather

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own four, its
    partner's barrier cell (its signal) and its partner's receive cell (its transfer). -/
def invs (K : Dev nD × Fin 4 → ℕ) (c : Dev nD) : sProp 𝕄 :=
  iprop(cellInv ER (sched m) (K (c, 0)) (barCell c) ∗ cellInv ER (sched m) (K (c, 1)) (copyCell c)
    ∗ cellInv ER (sched m) (K (c, 2)) (sendCell c) ∗ cellInv ER (sched m) (K (c, 3)) (recvCell c)
    ∗ cellInv ER (sched m) (K (peer c, 0)) (barCell (peer c)) ∗ cellInv ER (sched m) (K (peer c, 3)) (recvCell (peer c)))

instance invs_persistent (K : Dev nD × Fin 4 → ℕ) (c : Dev nD) : BI.Persistent (invs m K c) := by unfold invs; infer_instance

/-- The protocol's ghost state device `c` starts from: the invariants; its positions at round 0 of its four cells; round 0
    reached on the cells it pays; the four duty tokens it pays with — its partner's barrier duty and receive duty, its own
    copy duty and send duty. -/
def ghost (K : Dev nD × Fin 4 → ℕ) (c : Dev nD) : sProp 𝕄 :=
  iprop(invs m K c
    ∗ atPos ER (barCell c) 0 ∅ 0 ∗ atPos ER (copyCell c) 0 ∅ 0 ∗ atPos ER (sendCell c) 0 ∅ 0 ∗ atPos ER (recvCell c) 0 ∅ 0
    ∗ reached ER (barCell (peer c)) 0 ∗ reached ER (recvCell (peer c)) 0 ∗ reached ER (copyCell c) 0 ∗ reached ER (sendCell c) 0
    ∗ dutyTok ER (barCell (peer c)) 0 () ∗ dutyTok ER (recvCell (peer c)) 0 () ∗ dutyTok ER (copyCell c) 0 () ∗ dutyTok ER (sendCell c) 0 ())

/-- What device `c`'s body starts from beside its two arrays: the ghost state at some names, the credit for the one unit its
    partner owes its barrier cell and for the block its partner owes its receive cell, and the level facts. -/
def start (c : Dev nD) : sProp 𝕄 :=
  iprop((∃ K, ghost m K c) ∗ cred (tallyAt (barCell c) () 1) ∗ cred (tallyAt (recvCell c) () N) ∗ levAts L lv)

/-- Device `c`'s block, whole, as launched; its result array, whole, at contents `f`. -/
def xWhole (c : Dev nD) : sProp 𝕄 := ((c : Thread nD τ).loc main_arg0) ↦{fullShare} m ((c : Thread nD τ).loc main_arg0)
def oWhole (c : Dev nD) (f : Buf (Elt F) ((c : Thread nD τ).loc main_v1)) : sProp 𝕄 := ((c : Thread nD τ).loc main_v1) ↦{fullShare} f

def Φ₀ (c : Dev nD) : sProp 𝕄 := iprop(start m c ∗ xWhole m c ∗ oWhole c (m ((c : Thread nD τ).loc main_v1)))
/-- After the body: the block as it was, the result array gathered, the three own cells at zero, closed. -/
def Φ₁ (c : Dev nD) : sProp 𝕄 :=
  iprop(xWhole m c ∗ oWhole c (gath m c) ∗ semVal (copyCell c) 0 ∗ semVal (sendCell c) 0 ∗ semVal (recvCell c) 0)

/-- The pipeline's proof data: no window, one point; the invariant before and after the point; the device owes `O₀ c`
    before it and nothing after. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

omit [FloatOps F] in
/-- The barrier payload at the PARTNER's cell, the partner's partner resolved to the device itself: the partner's rows of
    this device's result array, at any contents. -/
theorem payload_bar_peer (c : Dev nD) (d : Unit) : (sched (F := F) m).payload (barCell (peer c)) 0 d
    = iprop(∃ f, (slc (peer c)).view.loc (c : Thread nD τ) ↦[(slc (peer c)).view.set]{fullShare} f) := by
  rw [payload_bar]; unfold barPay; rw [peer_peer]
omit [FloatOps F] in
/-- The receive payload at the partner's cell: the rows of block `c` of the PARTNER's result array, gathered. -/
theorem payload_recv_peer (c : Dev nD) (d : Unit) : (sched (F := F) m).payload (recvCell (peer c)) 0 d
    = ((slc c).view.loc (peer c : Thread nD τ) ↦[(slc c).view.set]{fullShare} gath2 m (peer c) c) := by
  rw [payload_recv, ← gath_peer]; unfold recvPay; rw [peer_peer]

omit [FloatOps F] in
/-- The block held whole at a share and held through its (whole) view are one assertion. -/
theorem x_eq (q : PosShare TreeShare) (c : Dev nD) :
    ((xM : Memref sig .tc .hbm S4096x1024 .f32).view.loc (c : Thread nD τ) ↦[(xM : Memref sig .tc .hbm S4096x1024 .f32).view.set]{q} xin m c : sProp 𝕄)
      = (((c : Thread nD τ).loc main_arg0) ↦{q} m ((c : Thread nD τ).loc main_arg0)) := by
  rw [show (xM : Memref sig .tc .hbm S4096x1024 .f32).view.set = Finset.univ from View.set_whole _]; rfl

omit [FloatOps F] in
/-- The local copy's landing makes the copy cell's payload: on the device's own rows the gathered array is the block just
    written, since the later write of the partner's block touches only the other rows. -/
theorem copy_pay (c : Dev nD) :
    (iprop(((slc c).view.loc (c : Thread nD τ) ↦[(slc c).view.set]{fullShare}
          ((slc c).view.write (Elt F) (m ((c : Thread nD τ).loc main_v1)) ((xM : Memref sig .tc .hbm S4096x1024 .f32).view.read (Elt F) (xin m c)) Finset.univ))
        ∗ ((xM : Memref sig .tc .hbm S4096x1024 .f32).view.loc (c : Thread nD τ) ↦[(xM : Memref sig .tc .hbm S4096x1024 .f32).view.set]{fullShare.right} xin m c)) : sProp 𝕄)
      ⊢ (sched (F := F) m).payload (copyCell c) 0 () := by
  rw [payload_copy]; unfold copyPay
  refine sep_mono_left (Entails.of_eq (pointsTo_congr fun i hi => ?_))
  have hni : i ∉ (slc (peer c)).view.setOn Finset.univ := by
    rw [View.setOn_univ]; exact Finset.disjoint_left.mp (slc_disjoint c) hi
  unfold gath gath2
  exact (View.write_of_not_mem (v := (slc (peer c)).view) _ _ Finset.univ hni).symm

section Body

variable (K : Dev nD × Fin 4 → ℕ)

def bodyPre (c : Dev nD) : sProp 𝕄 :=
  iprop((ghost m K c ∗ cred (tallyAt (barCell c) () 1) ∗ cred (tallyAt (recvCell c) () N) ∗ levAts L lv)
    ∗ xWhole m c ∗ oWhole c (m ((c : Thread nD τ).loc main_v1))
    ∗ (dats m 0 c).owesAt () t₀.castSucc)

def bodyPost (c : Dev nD) : sProp 𝕄 := iprop(Φ₁ m c ∗ (dats m 0 c).owesAt () t₀.succ)

omit [FloatOps F] in
/-- The result array cut into the device's own rows and its partner's. -/
theorem o_split (c : Dev nD) (f : Buf (Elt F) ((c : Thread nD τ).loc main_v1)) :
    oWhole c f ⊣⊢ (iprop(((slc c).view.loc (c : Thread nD τ) ↦[(slc c).view.set]{fullShare} f)
      ∗ ((slc (peer c)).view.loc (c : Thread nD τ) ↦[(slc (peer c)).view.set]{fullShare} f)) : sProp 𝕄) := by
  unfold oWhole
  have e : (Finset.univ : Finset (Idx ((c : Thread nD τ).loc main_v1))) \ (slc c).view.set = (slc (peer c)).view.set := slc_compl c
  have h : (((c : Thread nD τ).loc main_v1) ↦[Finset.univ]{fullShare} f : sProp 𝕄)
      ⊣⊢ iprop((((c : Thread nD τ).loc main_v1) ↦[(slc c).view.set]{fullShare} f)
        ∗ (((c : Thread nD τ).loc main_v1) ↦[Finset.univ \ (slc c).view.set]{fullShare} f)) :=
    pointsTo_split_subset (Finset.subset_univ _)
  rw [e] at h
  exact h

/-- The addressed transfer of device `c`'s block into the rows of block `c` of its partner's result array, the device the
    program names given as `n = peer c` (substituted, not rewritten: the transfer's typing facts depend on it). It pays the
    send cell's duty with the share of the block it read and the partner's receive duty with those rows rewritten. -/
theorem wp_send_pair (c n : Dev nD) (hn : n = peer c)
    {hsc : (slc c : Memref sig (Dev.tc n : Thread nD τ).2.kind .hbm S4096x1024 .f32).view.ref.isScScratch = false}
    {hsrc : (xM : Memref sig .tc .hbm S4096x1024 .f32).view.WordExact} {hdst : (slc c).view.WordExact}
    {hsem : DmaTarget.Typed .hbm (.dma recvS.sem) (.remote (Dev.tc n : Thread nD τ) (slc c) (.dma sendS.sem) hsc)}
    {α : Type} {Q : α → sProp 𝕄} {k : PUnit → Prog (TpuEff nD τ sig (Elt F) Λ₀ .tc) α}
    (fn : Buf (Elt F) ((slc c).view.loc (peer c : Thread nD τ))) (W : Waits sig Unit) :
    iprop(cellInv ER (sched m) (K (c, 2)) (sendCell c) ∗ cellInv ER (sched m) (K (peer c, 3)) (recvCell (peer c))
        ∗ ((xM : Memref sig .tc .hbm S4096x1024 .f32).view.loc (c : Thread nD τ) ↦[(xM : Memref sig .tc .hbm S4096x1024 .f32).view.set]{fullShare.left} xin m c)
        ∗ ((slc c).view.loc (peer c : Thread nD τ) ↦[(slc c).view.set]{fullShare} fn)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) (slc c) (.dma sendS.sem) hsc) (.dma recvS.sem) hsrc hdst hsem) k) Q) := by
  subst hn
  exact Rounds.wp_send_pointsTo 𝒱₀ ER (sched m) (c : Thread nD τ) none (κ₁ := K (c, 2)) (κ₂ := K (peer c, 3))
    (r₁ := 0) (r₂ := 0) (d₁ := ()) (d₂ := ()) (q := fullShare.left) (fs := xin m c) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by
      rw [payload_recv_peer]; unfold gath2
      exact Entails.of_eq (pointsTo_congr fun i hi => write_univ_congr (slc c).view _ _ _ i hi))

set_option maxHeartbeats 800000 in
/-- The body, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            cc0_scratch0 cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIcpy, #HIsnd, #HIrcv, #HIbarP, #HIrcvP⟩, HatB, HatC, HatS, HatV, #HrBP, #HrVP, #HrC, #HrS, HtBP, HtVP, HtC, HtS⟩, HcB, HcV, #Hlev⟩,
    Hx, Ho, HO⟩, Hk⟩
  unfold Dat.owesAt Pipeline.owesWithin
  icases HO with ⟨%W, %hW, HO⟩
  rw [show (dats m 0 c).owed t₀.castSucc = O₀ c from rfl]
  simp only [dev1_eq c]
  -- the result array in two halves, the block in two shares
  ihave Ho2 := (o_split c _).1 $$ Ho
  icases Ho2 with ⟨Hmine, Htheirs⟩
  unfold xWhole
  ihave Hx2 := (pointsTo_share (PosShare.mem_left_op_right fullShare)).1 $$ Hx
  icases Hx2 with ⟨HxL, HxR⟩
  ihave HxL := (Entails.of_eq (x_eq m fullShare.left c).symm) $$ HxL
  ihave HxR := (Entails.of_eq (x_eq m fullShare.right c).symm) $$ HxR
  -- the entry SIGNAL to the partner's barrier: it hands over the partner's rows of this device's result array
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) ()
      (tallyAt (recvCell (peer c)) () N) rfl)
    $$ [HO HtBP Htheirs]
  · isplitr; · iexact HIbarP
    isplitl [HO]; · iexact HO
    isplitl [HtBP]; · iexact HtBP
    isplitl [Htheirs]
    · rw [payload_bar_peer]; iexists _; iexact Htheirs
    · iexact HrBP
  iintro HO
  -- the WAIT for the partner's unit, owing its receive credit: the partner's slot for this device's block comes with it
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨%fn, Hslot⟩
  -- the TRANSFER of the block into the partner's slot, reading the left share
  iapply (wp_send_pair m K c _ (dev2_eq c) fn (insert (SemLoc.reg barS, ()) W)) $$ [HxL Hslot HO HtS HtVP]
  · isplitr; · iexact HIsnd
    isplitr; · iexact HIrcvP
    isplitl [HxL]; · iexact HxL
    isplitl [Hslot]; · iexact Hslot
    isplitl [HO]; · iexact HO
    isplitl [HtS]; · iexact HtS
    isplitr; · iexact HrS
    isplitl [HtVP]; · iexact HtVP
    iexact HrVP
  iintro ⟨HcS, HO⟩
  -- the LOCAL COPY of the block into the device's own rows, reading the right share
  iapply (Rounds.wp_copy_pointsTo 𝒱₀ ER (sched m) (c : Thread nD τ) none (src := xM) (dst := slc c) (sem := .dma copyS.sem)
      (q := fullShare.right) (fs := xin m c) (fd := m ((c : Thread nD τ).loc main_v1)) (κ := K (c, 1)) (r := 0) (d := ())
      (by rw [duties_copy]; exact Finset.mem_singleton_self _) () N rfl (amount_copy m c ()) (copy_pay m c)) $$ [HxR Hmine HtC]
  · isplitr; · iexact HIcpy
    isplitl [HxR]; · iexact HxR
    isplitl [Hmine]; · iexact Hmine
    isplitl [HtC]; · iexact HtC
    iexact HrC
  iintro HcC
  -- the wait on the COPY cell: the own rows, holding the block, and the right share back
  iapply (Rounds.wp_wait_rest_token 𝒱₀ ER (sched m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_copy]; exact slc_credit c)) $$ [HcC HO HatC]
  · isplitr; · iexact HIcpy
    isplitl [HcC]; · iexact HcC
    isplitl [HO]; · iexact HO
    isplitr; · rw [MayWait_zero]; iempintro
    iexact HatC
  iintro ⟨HO, HatC, -, Hpay⟩
  ihave Hp := (Entails.of_eq (rest_copy m c)) $$ Hpay
  unfold copyPay
  icases Hp with ⟨Hmine, HxR⟩
  -- the wait on the SEND cell: the left share back
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma copyS.sem, ()) (insert (SemLoc.reg barS, ()) W)) (R := 0) (m := 0) (T := ∅)
      (by rw [Nat.zero_add, expect_send]; rfl)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HxL := (Entails.of_eq ((rest_send m c).trans (by unfold sendPay; rfl))) $$ Hpay
  -- the wait on the RECEIVE cell: the other rows, holding the partner's block
  iapply (Rounds.wp_wait_rest_token 𝒱₀ ER (sched m) (c : Thread nD τ) none (κ := K (c, 3))
      (wpE_waitDma2_eq 𝒱₀ (c : Thread nD τ) none Set.univ) (Set.mem_univ _) () (O := 0)
      (W := insert (SemLoc.dma sendS.sem, ()) (insert (SemLoc.dma copyS.sem, ()) (insert (SemLoc.reg barS, ()) W))) (R := 0) (m := 0) (T := ∅)
      (by rw [Nat.zero_add, expect_recv]; exact slc_credit c)) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Htheirs := (Entails.of_eq ((rest_recv m c).trans (by unfold recvPay; rfl))) $$ Hpay
  -- the three own cells close: their counters at zero are the device's again
  imod (Rounds.cell_close ER (sched m) (Set.mem_univ (K (c, 1))) (fun h => h) (R := 0 + 1) (duties_later m (copyCell c))) $$ [HatC] with HzC
  · isplitr; · iexact HIcpy
    iexact HatC
  imod (Rounds.cell_close ER (sched m) (Set.mem_univ (K (c, 2))) (fun h => h) (R := 0 + 1) (duties_later m (sendCell c))) $$ [HatS] with HzS
  · isplitr; · iexact HIsnd
    iexact HatS
  imod (Rounds.cell_close ER (sched m) (Set.mem_univ (K (c, 3))) (fun h => h) (R := 0 + 1) (duties_later m (recvCell c))) $$ [HatV] with HzV
  · isplitr; · iexact HIrcv
    iexact HatV
  -- the shares and the halves rejoin
  ihave Hx := (pointsTo_share (PosShare.mem_left_op_right fullShare)).2 $$ [HxL HxR]
  · isplitl [HxL] <;> iassumption
  ihave Hx := (Entails.of_eq (x_eq m fullShare c)) $$ Hx
  ihave Ho := (o_split c (gath m c)).2 $$ [Hmine Htheirs]
  · isplitl [Hmine] <;> iassumption
  rw [wp_ret]; imodintro
  iapply Hk
  unfold bodyPost Φ₁ Dat.owesAt Pipeline.owesWithin xWhole
  rw [show (dats m 0 c).owed t₀.succ = 0 from rfl]
  isplitl [Hx Ho HzC HzS HzV]
  · isplitl [Hx]; · iexact Hx
    isplitl [Ho]; · iexact Ho
    isplitl [HzC]; · iexact HzC
    isplitl [HzS]; · iexact HzS
    iexact HzV
  iexists (insert (SemLoc.dma recvS.sem, ()) (insert (SemLoc.dma sendS.sem, ()) (insert (SemLoc.dma copyS.sem, ()) (insert (SemLoc.reg barS, ()) W))))
  isplitr; · ipureintro; exact fun _ _ => Or.inl trivial
  iexact HO

end Body

end Cert.KernelIdeal.Gather

end
-- ==== Proof.KernelIdeal.Launch.lean ====
/-
  The launch: from "each device's body is proved" to the run of the whole mesh.

  Every device's four cells are allocated under one update (a device's barrier and receive cells are paid by its partner,
  so their invariants are shared); each cell's one duty token is dealt to the device that pays it — the barrier's and the
  receive cell's to the partner, the copy's and the send's to the device itself. The launch credit of device `c` is what
  its partner owes it: one barrier unit and one block on its receive cell. The two arrays travel through the launch as
  the device's unscoped buffers and are read back against the final memory.
-/
import proofs.«900689_g7700000000000690_dist_ag_v7x_xyz2x4x4_x_m4096_n1024_f32_1_alg».proof.Proof.KernelIdeal.Body

noncomputable section

namespace Cert.KernelIdeal.Gather

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

theorem ownSemFacts : Pipeline.OwnSemFacts cfg0.spec osem := by decide

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def allCells : Finset (GSem nD τ sig) := Finset.univ.map ⟨kcell, kcell_injective⟩

/-- Each cell's one duty token, as minted. -/
abbrev tokOf (ck : Dev nD × Fin 4) : GSem nD τ sig × ℕ × Unit := (kcell ck, 0, ())
theorem tokOf_injective : Function.Injective (tokOf : Dev nD × Fin 4 → GSem nD τ sig × ℕ × Unit) :=
  fun a b h => kcell_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop(dutyTok ER (barCell c) 0 () ∗ dutyTok ER (copyCell c) 0 () ∗ dutyTok ER (sendCell c) 0 () ∗ dutyTok ER (recvCell c) 0 ())

/-- What the launch element deals device `c`. -/
def G (c : Dev nD) : sProp 𝕄 :=
  iprop((bigSep Finset.univ fun k : Fin 4 => roundState ER (sched m) (kcell (c, k)) 0)
    ∗ (bigSep Finset.univ fun k : Fin 4 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 4 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin4]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The copy, send and receive semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (copyCell c) 0 ∗ semVal (sendCell c) 0 ∗ semVal (recvCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HC, HS, HV⟩, HB⟩
  isplitl [HB]; · iexact HB
  isplitl [HC]; · iexact HC
  isplitl [HS] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (sched m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (sched m) (K ck) (kcell ck) : sProp 𝕄)) ⊢ cellInv ER (sched m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (copyCell c) 0 () ∗ dutyTok ER (sendCell c) 0 ())
def linear (c : Dev nD) : sProp 𝕄 :=
  iprop((atPos ER (barCell c) 0 ∅ 0 ∗ atPos ER (copyCell c) 0 ∅ 0 ∗ atPos ER (sendCell c) 0 ∅ 0 ∗ atPos ER (recvCell c) 0 ∅ 0) ∗ payToks c)

omit [FloatOps F] in
theorem ghost_intro (K : Dev nD × Fin 4 → ℕ) (c : Dev nD) : iprop(records m K ∗ linear c) ⊢ G' m c := by
  unfold records linear payToks G' ghost invs
  iintro ⟨⟨#HI, #HR⟩, ⟨HaB, HaC, HaS, HaV⟩, HtBP, HtVP, HtC, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (peer c, 0)); iexact HI
    iapply (inv_at m K (peer c, 3)); iexact HI
  isplitl [HaB]; · iexact HaB
  isplitl [HaC]; · iexact HaC
  isplitl [HaS]; · iexact HaS
  isplitl [HaV]; · iexact HaV
  isplitr; · iapply (reached_at (F := F) (peer c, 0)); iexact HR
  isplitr; · iapply (reached_at (F := F) (peer c, 3)); iexact HR
  isplitr; · iapply (reached_at (F := F) (c, 1)); iexact HR
  isplitr; · iapply (reached_at (F := F) (c, 2)); iexact HR
  isplitl [HtBP]; · iexact HtBP
  isplitl [HtVP]; · iexact HtVP
  isplitl [HtC]; · iexact HtC
  iexact HtS

omit [FloatOps F] in
/-- The tokens dealt across each pair: a barrier cell's and a receive cell's token to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv pairs (fun c : Dev nD => (dutyTok ER (barCell c) 0 () : sProp 𝕄)),
    bigSep_univ_equiv pairs (fun c : Dev nD => (dutyTok ER (recvCell c) 0 () : sProp 𝕄))]
  iintro ⟨H1, H2, H3, H4⟩
  isplitl [H1]; · iexact H1
  isplitl [H4]; · iexact H4
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

omit [FloatOps F] in
/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
theorem peer_eq_iff {d c : Dev nD} : Iff (peer d = c) (d = peer c) :=
  ⟨fun h => by rw [← h, peer_peer], fun h => by rw [h, peer_peer]⟩

omit [FloatOps F] in
/-- What device `d` owes device `c`'s barrier cell: a unit if it is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (peer_eq_iff.mp (bar_eq_iff.mp h1.symm))), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (peer_eq_iff.mp (recv_eq_iff.mp h1.symm))), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

/-- What a device routes into the pipeline's invariant: its start state and its two arrays. -/
def X (c : Dev nD) : sProp 𝕄 := Φ₀ m c
/-- What it is left with: its block as it was, its result array gathered. -/
def Y (c : Dev nD) : sProp 𝕄 := iprop(xWhole m c ∗ oWhole c (gath m c))

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold X Φ₀ start G' xWhole oWhole
  isplitl
  · isplitl [HG H1 HN Hlev]
    · isplitl [HG]; · iexact HG
      isplitl [H1]; · iexact H1
      isplitl [HN]; · iexact HN
      iexact Hlev
    isplitl [Hx]; · iexact Hx
    iexact Ho
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold X
  iintro ⟨Hs, -, -⟩
  iexact Hs

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨Hx, Ho, HzC, HzS, HzV⟩
  isplitl [Hx Ho]
  · isplitl [Hx] <;> iassumption
  isplitl [HzC HzS HzV]
  · isplitl [HzC]; · iexact HzC
    isplitl [HzS] <;> iassumption
  iempintro

theorem waits (c : Dev nD) : (levAts L lv : sProp 𝕄) ⊢ Pipeline.cellsWaits cfgs (dats m) () 0 c :=
  Pipeline.cellsWaits_intro cfgs (dats m) () 0 c fun w s t => w.elim0

/-! ### The body obligation and the run -/

omit [FloatOps F] in
theorem bigSep_W0 (Φ : Fin cfg0.W → sProp 𝕄) : bigSep Finset.univ Φ = iprop(emp) := by
  rw [show (Finset.univ : Finset (Fin cfg0.W)) = ∅ from Finset.univ_eq_empty, bigSep_empty]; rfl

/-- The library's body obligation on device `c`: no window, one point. -/
theorem body_obligation (c : Dev nD) : BodyObligation (dats (F := F) m 0 c) (defs₀ (F := F)) 𝒱₀ () Set.univ := fun t => by
  rw [fin_N t]
  rw [bigSep_W0, bigSep_W0]
  show iprop(Φ₀ m c ∗ (dats m 0 c).owesAt () t₀.castSucc ∗ emp) ⊢ wp frame (wpE (defs₀ (F := F)) 𝒱₀ c none) Set.univ
    (cc0_body (Memref.whole main_arg0) (Memref.isWhole_whole _) (Memref.whole main_v1) (Memref.isWhole_whole _)
      cc0_scratch0 cc0_scratch1 cc0_scratch2) (fun _ => iprop(Φ₁ m c ∗ (dats m 0 c).owesAt () t₀.succ ∗ emp))
  unfold Φ₀ start
  iintro ⟨⟨⟨⟨%K, Hg⟩, Hrest⟩, Hx, Ho⟩, HO, -⟩
  iapply (sound_body m K c fun _ => iprop(Φ₁ m c ∗ (dats m 0 c).owesAt () t₀.succ ∗ emp))
  unfold bodyPre bodyPost
  isplitr []
  · isplitl [Hg Hrest]
    · isplitl [Hg]; · iexact Hg
      iexact Hrest
    isplitl [Hx]; · iexact Hx
    isplitl [Ho]; · iexact Ho
    iexact HO
  · iintro ⟨H1, H2⟩
    isplitl [H1]; · iexact H1
    isplitl [H2]; · iexact H2
    iempintro

/-- What the run establishes: every device's result array gathered, its block as it was. -/
def QM : PUnit × MemSt nD τ sig (Elt F) → Prop := fun r =>
  ∀ c : Dev nD, r.2.mem ((c : Thread nD τ).loc main_v1) = gath m c
    ∧ r.2.mem ((c : Thread nD τ).loc main_arg0) = m ((c : Thread nD τ).loc main_arg0)

set_option maxRecDepth 8000 in
/-- At the compiled mesh of 32 devices, for any float values, from any memory with zero counters: every weakly fair
    execution of @main — the 16 pairs each shaking hands on the barrier semaphore, then exchanging blocks — terminates, and
    every final state has each device's result array holding both blocks and its own block unchanged. -/
theorem run_main : θ_run defs (onTc (τ := τ) (main (F := F))) ⟨m, fun _ => 0, ρ⟩ (QM m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := fun c s => s.mem ((c : Thread nD τ).loc main_v1) = gath m c
      ∧ s.mem ((c : Thread nD τ).loc main_arg0) = m ((c : Thread nD τ).loc main_arg0))
    (hY := fun c s' => by
      unfold Y xWhole oWhole
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.Gather.run_main' depends on axioms: [propext, Classical.choice, Quot.sound] -/
#guard_msgs in #print axioms run_main

end Cert.KernelIdeal.Gather

end
-- ==== Proof.KernelIdeal.Value.lean ====
/-
  The value: what each device's result array ends holding IS the whole array its block was cut from.

  Device `d`'s block is rows [4096·(d / 16), +4096) of the whole array `W` (the mesh's first axis cuts dimension 0 in two;
  the other two axes replicate). The gathered array of device `c` holds `c`'s block in `c`'s rows and its partner's block in
  the partner's rows; the two row ranges are disjoint and cover the array, and on each the element at row offset + y₀ is
  `W` at that same index. So the gathered array is `W`, on every device.
-/
import proofs.«900689_g7700000000000690_dist_ag_v7x_xyz2x4x4_x_m4096_n1024_f32_1_alg».proof.Proof.KernelIdeal.Sched
import Idealize.ShloMosaic.Lib.Layout

noncomputable section

namespace Cert.KernelIdeal.Gather

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- The first block coordinate of device `d` is its first mesh coordinate, the second is zero (dimension 1 is not cut). -/
theorem blk0 (d : Dev nD) : ((Layout.meshBlock [2, 4, 4] ![[0], []] d) (0 : Fin 2)).val = d.val / 16 := by revert d; decide
omit [FloatOps F] in
theorem blk1 (d : Dev nD) : ((Layout.meshBlock [2, 4, 4] ![[0], []] d) (1 : Fin 2)).val = 0 := by revert d; decide

omit [FloatOps F] in
/-- Element `y` of device `d`'s block sits, in the whole array, where the rows of block `d` put it in the result array. -/
theorem idx_eq (d : Dev nD) (y : S4096x1024.Idx)
    (h : Layout.TilesN ⟨2, ![4096, 1024]⟩ ⟨2, ![8192, 1024]⟩ (fun b => Layout.cutSize [2, 4, 4] ((![[0], []] : Fin 2 → List Nat) b))) :
    h.idx (Layout.meshBlock [2, 4, 4] ![[0], []] d) y = (slc d).view.emb y := by
  funext b
  apply Fin.ext
  rw [Layout.TilesN.idx_val]
  have e := k0_off1_eq d
  match b with
  | ⟨0, _⟩ =>
    show ((Layout.meshBlock [2, 4, 4] ![[0], []] d) (0 : Fin 2)).val * 4096 + (y 0).val = k0_off1 d 0 + 1 * (y 0).val
    rw [blk0 d, e]; show d.val / 16 * 4096 + (y 0).val = 4096 * (d.val / 16) + 1 * (y 0).val; omega
  | ⟨1, _⟩ =>
    show ((Layout.meshBlock [2, 4, 4] ![[0], []] d) (1 : Fin 2)).val * 1024 + (y 1).val = k0_off1 d 1 + 1 * (y 1).val
    rw [blk1 d, e]; show 0 * 1024 + (y 1).val = 0 + 1 * (y 1).val; omega

omit [FloatOps F] in
/-- The rows of block `d`, written from device `d`'s block over anything, hold at the image of `y` the block's element `y`. -/
theorem put_emb (d : Dev nD) (f : (slc d).view.ty.Contents (Elt F)) (y : S4096x1024.Idx) :
    (slc d).view.write (Elt F) f ((xM : Memref sig .tc .hbm S4096x1024 .f32).view.read (Elt F) (xin m d)) Finset.univ ((slc d).view.emb y)
      = m ((d : Thread nD τ).loc main_arg0) y := by
  rw [View.write_emb_of_mem _ _ (Finset.mem_univ y), View.read_apply]
  rfl

omit [FloatOps F] in
/-- Every device's gathered array is the whole array. -/
theorem gath_eq (W : S8192x1024.Idx → Elt F .f32)
    (hx : ∀ d : Dev nD, m ((d : Thread nD τ).loc main_arg0)
      = Layout.blockN ⟨2, ![4096, 1024]⟩ ⟨2, ![8192, 1024]⟩ (Layout.meshBlock [2, 4, 4] ![[0], []] d) W)
    (c : Dev nD) : gath m c = W := by
  funext i
  by_cases hi : i ∈ (slc c).view.set
  · obtain ⟨y, rfl⟩ := View.exists_emb_of_mem_set (slc c).view hi
    have hni : (slc c).view.emb y ∉ (slc (peer c)).view.setOn Finset.univ := by
      rw [View.setOn_univ]; exact Finset.disjoint_left.mp (slc_disjoint c) hi
    unfold gath gath2
    rw [View.write_of_not_mem (v := (slc (peer c)).view) _ _ Finset.univ hni, put_emb, hx c, Layout.blockN_apply]
    exact congrArg W (idx_eq c y _)
  · have hj : i ∈ (slc (peer c)).view.set := by
      rw [← slc_compl c]; exact Finset.mem_sdiff.mpr ⟨Finset.mem_univ _, hi⟩
    obtain ⟨y, rfl⟩ := View.exists_emb_of_mem_set (slc (peer c)).view hj
    unfold gath gath2
    rw [put_emb, hx (peer c), Layout.blockN_apply]
    exact congrArg W (idx_eq (peer c) y _)

end Cert.KernelIdeal.Gather

end
-- ==== Proof.RefRun.lean ====
/-
  The reference on its one device: @main is the identity, a program of no operation. Every execution ends at once with
  the array as it was.
-/
import proofs.«900689_g7700000000000690_dist_ag_v7x_xyz2x4x4_x_m4096_n1024_f32_1_alg».proof.Defs
import proofs.«900689_g7700000000000690_dist_ag_v7x_xyz2x4x4_x_m4096_n1024_f32_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem main_eq (c : Dev nD) : main (F := F) c = seq ([] : List (HloOp τ sig (Elt F))) := rfl
theorem scopedRefs_eq : (Finset.univ.filter fun b : Ref sig .tc => b.isScoped) = ∅ := by decide
theorem scopedSems_eq : (Finset.univ.filter fun sm : SemLoc sig => sm.isScoped .tc) = ∅ := by decide

/-- From any memory with zero counters every execution of the reference terminates with its array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (by after_results))
    (run_seq scopedRefs_eq scopedSems_eq defs main (fun _ => []) main_eq (fun _ => trivial) m ρ)

end Cert.ReferenceIdeal.RefRun

end
-- ==== Proof.lean ====
/-
  An all-gather along the mesh axis of extent 2, on 32 devices (mesh 2 × 4 × 4), against the identity on the whole array.

  The whole array has 8192 rows of 1024 words; device `c` holds the block of 4096 rows that its first mesh coordinate
  c / 16 names, and must end holding all 8192. The devices pair up across the first axis (c with c ± 16). Each device
  tells its partner it has entered, waits for the partner's word, sends its block into the partner's result array at the
  rows of its own block index, copies its block into the same rows of its own result array, and waits for the copy, for the
  departure of what it sent and for the arrival of the partner's block. The two row ranges are disjoint and cover the
  array, nothing is read from the result array and nothing written to the source, so in every interleaving each device's
  result array ends as: own block in own rows, partner's block in the other rows — which is the whole array, since the
  block at first coordinate k is rows [4096·k, 4096·k + 4096) of it.

  No arithmetic is done on the elements: the equality holds value by value, so the precondition is never opened.
  The three frames are the runs with the values dropped; the idealization rewrote nothing, so `preserves` is `True`.
-/
import proofs.«900689_g7700000000000690_dist_ag_v7x_xyz2x4x4_x_m4096_n1024_f32_1_alg».proof.Defs
import proofs.«900689_g7700000000000690_dist_ag_v7x_xyz2x4x4_x_m4096_n1024_f32_1_alg».proof.Proof.Gen.Kernel
import proofs.«900689_g7700000000000690_dist_ag_v7x_xyz2x4x4_x_m4096_n1024_f32_1_alg».proof.Proof.Gen.KernelIdeal
import proofs.«900689_g7700000000000690_dist_ag_v7x_xyz2x4x4_x_m4096_n1024_f32_1_alg».proof.Proof.Gen.ReferenceIdeal
import proofs.«900689_g7700000000000690_dist_ag_v7x_xyz2x4x4_x_m4096_n1024_f32_1_alg».proof.Proof.Gen.Pre_finite_inputs_Kernel
import proofs.«900689_g7700000000000690_dist_ag_v7x_xyz2x4x4_x_m4096_n1024_f32_1_alg».proof.Proof.Gen.Pre_finite_inputs_ReferenceIdeal
import proofs.«900689_g7700000000000690_dist_ag_v7x_xyz2x4x4_x_m4096_n1024_f32_1_alg».proof.Proof.Kernel.Launch
import proofs.«900689_g7700000000000690_dist_ag_v7x_xyz2x4x4_x_m4096_n1024_f32_1_alg».proof.Proof.KernelIdeal.Launch
import proofs.«900689_g7700000000000690_dist_ag_v7x_xyz2x4x4_x_m4096_n1024_f32_1_alg».proof.Proof.KernelIdeal.Value
import proofs.«900689_g7700000000000690_dist_ag_v7x_xyz2x4x4_x_m4096_n1024_f32_1_alg».proof.Proof.RefRun
import Idealize.ShloMosaic.Adequacy
import Idealize.ShloMosaic.Init

noncomputable section

namespace Cert.Proof

open Idealize.ShloMosaic Idealize.SL.Sem

/-- The word-level kernel runs to the end on every device, faulting nowhere, each block unchanged. -/
theorem frame_k : Cert.frame_Kernel := fun m ρ _ =>
  (θ_run Cert.Kernel.defs _ _).mono (fun _ h c => (h c).2) (Cert.Kernel.Gather.run_main (F := Bits) m ρ)

/-- The same of the kernel read over the extended reals. -/
theorem frame_ki : Cert.frame_KernelIdeal := fun m ρ _ =>
  (θ_run Cert.KernelIdeal.defs _ _).mono (fun _ h c => (h c).2) (Cert.KernelIdeal.Gather.run_main (F := Ideal) m ρ)

/-- The reference does nothing to its array. -/
theorem frame_ri : Cert.frame_ReferenceIdeal := fun m ρ _ => Cert.ReferenceIdeal.RefRun.run (F := Ideal) m ρ

/-- The idealization rewrote no operation. -/
theorem preserves : Cert.preserves_Kernel_KernelIdeal := trivial

/-- Every device's result array ends as the whole array the blocks were cut from, which is what the reference returns. -/
theorem algebraic : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · refine (θ_run Cert.KernelIdeal.defs _ _).mono (fun _ h c => ⟨(h c).1.trans ?_, (h c).2⟩)
      (Cert.KernelIdeal.Gather.run_main (F := Ideal) m ρ)
    exact Cert.KernelIdeal.Gather.gath_eq m _ hagree c
  · exact (θ_run Cert.ReferenceIdeal.defs _ _).mono (fun _ h => ⟨h 0, h 0⟩) (Cert.ReferenceIdeal.RefRun.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
